-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  IdealRules.named_const.Statement Cert.KernelIdeal.κ "eps_squared" .f32 0x179ABE15#32 ((5316911940649 / 5316911983139663491615228241121378304 : ℝ) : EReal)
  ∧ IdealRules.named_const.Statement Cert.KernelIdeal.κ "inv_temperature" .f32 0x41649249#32 ((134217728 / 9395241 : ℝ) : EReal)
  ∧ IdealRules.named_const.Statement Cert.KernelIdeal.κ "inv_temperature" .f32 0x41649249#32 ((134217728 / 9395241 : ℝ) : EReal)

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S16x4096x128 : Shape := ⟨3, ![16, 4096, 128]⟩
abbrev S64x128 : Shape := ⟨2, ![64, 128]⟩
abbrev S_ : Shape := ⟨0, ![]⟩

class Facts : Prop where
  bcast_S_S16x4096x128 : S_.BroadcastsInDim S16x4096x128 (![] : Fin 0 → Fin S16x4096x128.rank)
  reducesTo_S16x4096x128_S_d0_1_2 : S16x4096x128.ReducesTo [0, 1, 2] S_
  h_S_ : 0 < S_.numel
  bcast_S_S64x128 : S_.BroadcastsInDim S64x128 (![] : Fin 0 → Fin S64x128.rank)
  reducesTo_S64x128_S_d0_1 : S64x128.ReducesTo [0, 1] S_

variable [Facts]

def fn {F : FTy → Type} [FloatOps F] (main_arg0 : FVec F S16x4096x128 .f32) (main_arg1 : FVec F S64x128 .f32) : IVec S_ 1 :=
  let main_v0 : FVec F S16x4096x128 .f32 := Host.absf main_arg0
  let main_cst : FVec F S_ .f32 := constant S_ .f32 0x7F800000#32
  let main_v1 : FVec F S16x4096x128 .f32 := broadcastInDim S16x4096x128 ![] bcast_S_S16x4096x128 main_cst
  let main_v2 : IVec S16x4096x128 1 := cmpf .olt main_v0 main_v1
  let main_c : IVec S_ 1 := constantI S_ 1 1#1
  let main_v3 : IVec S_ 1 := (fun x v => Host.reduce IntOp.andi x v reducesTo_S16x4096x128_S_d0_1_2 h_S_) main_v2 main_c
  let main_v4 : FVec F S64x128 .f32 := Host.absf main_arg1
  let main_cst_0 : FVec F S_ .f32 := constant S_ .f32 0x7F800000#32
  let main_v5 : FVec F S64x128 .f32 := broadcastInDim S64x128 ![] bcast_S_S64x128 main_cst_0
  let main_v6 : IVec S64x128 1 := cmpf .olt main_v4 main_v5
  let main_c_1 : IVec S_ 1 := constantI S_ 1 1#1
  let main_v7 : IVec S_ 1 := (fun x v => Host.reduce IntOp.andi x v reducesTo_S64x128_S_d0_1 h_S_) main_v6 main_c_1
  let main_v8 : IVec S_ 1 := andi main_v3 main_v7
  main_v8
-- ==== Kernel.lean ====
abbrev S16x4096x128 : Shape := ⟨3, ![16, 4096, 128]⟩
abbrev S64x128 : Shape := ⟨2, ![64, 128]⟩
abbrev S4x4096x128 : Shape := ⟨3, ![4, 4096, 128]⟩
abbrev S16384x128 : Shape := ⟨2, ![16384, 128]⟩
abbrev S64 : Shape := ⟨1, ![64]⟩
abbrev S64x1 : Shape := ⟨2, ![64, 1]⟩
abbrev S128x128 : Shape := ⟨2, ![128, 128]⟩
abbrev S128x64 : Shape := ⟨2, ![128, 64]⟩
abbrev S16384x64 : Shape := ⟨2, ![16384, 64]⟩
abbrev S16384 : Shape := ⟨1, ![16384]⟩
abbrev S16384x1 : Shape := ⟨2, ![16384, 1]⟩

abbrev nBuf : Space → Nat
  | .hbm => 3
  | .vmem => 5
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .local _ .vmem, ⟨0, _⟩ => ⟨S4x4096x128, .f32⟩
  | .local _ .vmem, ⟨1, _⟩ => ⟨S4x4096x128, .f32⟩
  | .local _ .vmem, ⟨2, _⟩ => ⟨S64x128, .f32⟩
  | .local _ .vmem, ⟨3, _⟩ => ⟨S4x4096x128, .f32⟩
  | .local _ .vmem, ⟨4, _⟩ => ⟨S4x4096x128, .f32⟩
  | _, _ => ⟨S16x4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S4x4096x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S4x4096x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S4x4096x128_S4x4096x128_0_0_0 : ∀ a, (![0, 0, 0] : Fin 3 → Nat) a + S4x4096x128.size a ≤ S4x4096x128.size a
  h_S4x4096x128 : 0 < S4x4096x128.numel
  shapeCasts_S4x4096x128_S16384x128 : S4x4096x128.ShapeCasts S16384x128
  inb_S64x128_S64x128_0_0 : ∀ a, (![0, 0] : Fin 2 → Nat) a + S64x128.size a ≤ S64x128.size a
  h_S64x128 : 0 < S64x128.numel
  reduces_S64x128_S64 : S64x128.Reduces [1] S64
  shapeCasts_S64_S64x1 : S64.ShapeCasts S64x1
  broadcasts_S64x1_S64x128 : S64x1.Broadcasts S64x128
  bitsLt_bf16_f32 : FTy.bits .bf16 < FTy.bits .f32
  transposes_S64x128_p1_0_S128x64 : S64x128.Transposes [1, 0] S128x64
  reduces_S16384x64_S16384 : S16384x64.Reduces [1] S16384
  shapeCasts_S16384_S16384x1 : S16384.ShapeCasts S16384x1
  broadcasts_S16384x1_S16384x64 : S16384x1.Broadcasts S16384x64
  shapeCasts_S16384x128_S4x4096x128 : S16384x128.ShapeCasts S4x4096x128
  dot_S16384x128_S128x128_S16384x128_1_0_0_1_n_n_wf : DotDims.WF S16384x128 S128x128 S16384x128 [1] [0] [0] [1] [] []
  dot_S16384x128_S128x64_S16384x64_1_0_0_1_n_n_wf : DotDims.WF S16384x128 S128x64 S16384x64 [1] [0] [0] [1] [] []
  dot_S16384x64_S64x128_S16384x128_1_0_0_1_n_n_wf : DotDims.WF S16384x64 S64x128 S16384x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4x4096x128.size a ≤ S16x4096x128.size a
  hwx0_0 : ∀ i : grid0.Coords, EltTy.bits .f32 = 32 ∨ (Rect.block (s := S16x4096x128) S4x4096x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x128.size a ≤ S64x128.size a
  hwx0_1 : ∀ i : grid0.Coords, EltTy.bits .f32 = 32 ∨ (Rect.block (s := S64x128) S64x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S4x4096x128.size a ≤ S16x4096x128.size a
  hwx0_2 : ∀ i : grid0.Coords, EltTy.bits .f32 = 32 ∨ (Rect.block (s := S16x4096x128) S4x4096x128.size (cc0_transform_2 i) (hinb0_2 i)).WholeWords (EltTy.packing .f32)

variable [Facts₀]

def dot_S16384x128_S128x128_S16384x128_1_0_0_1_n_n : DotDims S16384x128 S128x128 S16384x128 where
  lhsContracting := [1]
  rhsContracting := [0]
  lhsNonContracting := [0]
  rhsNonContracting := [1]
  lhsBatch := []
  rhsBatch := []
  wf := dot_S16384x128_S128x128_S16384x128_1_0_0_1_n_n_wf
def dot_S16384x128_S128x64_S16384x64_1_0_0_1_n_n : DotDims S16384x128 S128x64 S16384x64 where
  lhsContracting := [1]
  rhsContracting := [0]
  lhsNonContracting := [0]
  rhsNonContracting := [1]
  lhsBatch := []
  rhsBatch := []
  wf := dot_S16384x128_S128x64_S16384x64_1_0_0_1_n_n_wf
def dot_S16384x64_S64x128_S16384x128_1_0_0_1_n_n : DotDims S16384x64 S64x128 S16384x128 where
  lhsContracting := [1]
  rhsContracting := [0]
  lhsNonContracting := [0]
  rhsNonContracting := [1]
  lhsBatch := []
  rhsBatch := []
  wf := dot_S16384x64_S64x128_S16384x128_1_0_0_1_n_n_wf

abbrev win0_0 : Pipeline.Window sig grid0 :=
  Pipeline.Window.ofSpec (Memref.whole main_arg0) S4x4096x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S64x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S4x4096x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S16x4096x128 : Shape := ⟨3, ![16, 4096, 128]⟩
abbrev S64x128 : Shape := ⟨2, ![64, 128]⟩
abbrev S_ : Shape := ⟨0, ![]⟩
abbrev S16x4096 : Shape := ⟨2, ![16, 4096]⟩
abbrev S16x4096x1 : Shape := ⟨3, ![16, 4096, 1]⟩
abbrev S65536x128 : Shape := ⟨2, ![65536, 128]⟩
abbrev S64 : Shape := ⟨1, ![64]⟩
abbrev S64x1 : Shape := ⟨2, ![64, 1]⟩
abbrev S128x64 : Shape := ⟨2, ![128, 64]⟩
abbrev S65536x64 : Shape := ⟨2, ![65536, 64]⟩
abbrev S65536 : Shape := ⟨1, ![65536]⟩
abbrev S65536x1 : Shape := ⟨2, ![65536, 1]⟩

abbrev nBuf : Space → Nat
  | .hbm => 45
  | .vmem => 0
  | .smem => 0
  | _ => 0

abbrev bufTy : (tb : Table) → Fin (tcTables nBuf tb) → BufTy
  | .hbm, ⟨0, _⟩ => ⟨S16x4096x128, .f32⟩
  | .hbm, ⟨1, _⟩ => ⟨S64x128, .f32⟩
  | .hbm, ⟨2, _⟩ => ⟨S16x4096x128, .f32⟩
  | .hbm, ⟨3, _⟩ => ⟨S_, .f32⟩
  | .hbm, ⟨4, _⟩ => ⟨S16x4096, .f32⟩
  | .hbm, ⟨5, _⟩ => ⟨S16x4096x1, .f32⟩
  | .hbm, ⟨6, _⟩ => ⟨S16x4096x1, .f32⟩
  | .hbm, ⟨7, _⟩ => ⟨S_, .f32⟩
  | .hbm, ⟨8, _⟩ => ⟨S16x4096x1, .f32⟩
  | .hbm, ⟨9, _⟩ => ⟨S16x4096x1, .f32⟩
  | .hbm, ⟨10, _⟩ => ⟨S16x4096x128, .f32⟩
  | .hbm, ⟨11, _⟩ => ⟨S16x4096x128, .f32⟩
  | .hbm, ⟨12, _⟩ => ⟨S65536x128, .f32⟩
  | .hbm, ⟨13, _⟩ => ⟨S64x128, .f32⟩
  | .hbm, ⟨14, _⟩ => ⟨S_, .f32⟩
  | .hbm, ⟨15, _⟩ => ⟨S64, .f32⟩
  | .hbm, ⟨16, _⟩ => ⟨S64x1, .f32⟩
  | .hbm, ⟨17, _⟩ => ⟨S64x1, .f32⟩
  | .hbm, ⟨18, _⟩ => ⟨S_, .f32⟩
  | .hbm, ⟨19, _⟩ => ⟨S64x1, .f32⟩
  | .hbm, ⟨20, _⟩ => ⟨S64x1, .f32⟩
  | .hbm, ⟨21, _⟩ => ⟨S64x128, .f32⟩
  | .hbm, ⟨22, _⟩ => ⟨S64x128, .f32⟩
  | .hbm, ⟨23, _⟩ => ⟨S128x64, .f32⟩
  | .hbm, ⟨24, _⟩ => ⟨S65536x64, .f32⟩
  | .hbm, ⟨25, _⟩ => ⟨S_, .f32⟩
  | .hbm, ⟨26, _⟩ => ⟨S65536x64, .f32⟩
  | .hbm, ⟨27, _⟩ => ⟨S65536x64, .f32⟩
  | .hbm, ⟨28, _⟩ => ⟨S_, .f32⟩
  | .hbm, ⟨29, _⟩ => ⟨S65536, .f32⟩
  | .hbm, ⟨30, _⟩ => ⟨S_, .f32⟩
  | .hbm, ⟨31, _⟩ => ⟨S65536, .f32⟩
  | .hbm, ⟨32, _⟩ => ⟨S65536, .f32⟩
  | .hbm, ⟨33, _⟩ => ⟨S65536x1, .f32⟩
  | .hbm, ⟨34, _⟩ => ⟨S65536x64, .f32⟩
  | .hbm, ⟨35, _⟩ => ⟨S65536x64, .f32⟩
  | .hbm, ⟨36, _⟩ => ⟨S65536x64, .f32⟩
  | .hbm, ⟨37, _⟩ => ⟨S_, .f32⟩
  | .hbm, ⟨38, _⟩ => ⟨S65536, .f32⟩
  | .hbm, ⟨39, _⟩ => ⟨S65536x1, .f32⟩
  | .hbm, ⟨40, _⟩ => ⟨S65536x64, .f32⟩
  | .hbm, ⟨41, _⟩ => ⟨S65536x64, .f32⟩
  | .hbm, ⟨42, _⟩ => ⟨S65536x128, .f32⟩
  | .hbm, ⟨43, _⟩ => ⟨S65536x128, .f32⟩
  | .hbm, ⟨44, _⟩ => ⟨S16x4096x128, .f32⟩
  | _, _ => ⟨S16x4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_cst_1 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_cst_2 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_v17 : Ref sig .tc := ⟨.hbm, 23, rfl⟩
abbrev main_v18 : Ref sig .tc := ⟨.hbm, 24, rfl⟩
abbrev main_cst_3 : Ref sig .tc := ⟨.hbm, 25, rfl⟩
abbrev main_v19 : Ref sig .tc := ⟨.hbm, 26, rfl⟩
abbrev main_v20 : Ref sig .tc := ⟨.hbm, 27, rfl⟩
abbrev main_cst_4 : Ref sig .tc := ⟨.hbm, 28, rfl⟩
abbrev main_v21 : Ref sig .tc := ⟨.hbm, 29, rfl⟩
abbrev main_cst_5 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_cst_6 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩

abbrev nD : Nat := 1
abbrev τ : Topo := Topo.v7x

variable {F : FTy → Type} [FloatOps F]

class Facts₀ : Prop where
  reducesTo_S16x4096x128_S16x4096_d2 : S16x4096x128.ReducesTo [2] S16x4096
  h_S_ : 0 < S_.numel
  bcast_S16x4096_S16x4096x1_0_1 : S16x4096.BroadcastsInDim S16x4096x1 (![0, 1] : Fin 2 → Fin S16x4096x1.rank)
  bcast_S_S16x4096x1 : S_.BroadcastsInDim S16x4096x1 (![] : Fin 0 → Fin S16x4096x1.rank)
  bcast_S16x4096x1_S16x4096x128_0_1_2 : S16x4096x1.BroadcastsInDim S16x4096x128 (![0, 1, 2] : Fin 3 → Fin S16x4096x128.rank)
  shapeCasts_S16x4096x128_S65536x128 : S16x4096x128.ShapeCasts S65536x128
  reducesTo_S64x128_S64_d1 : S64x128.ReducesTo [1] S64
  bcast_S64_S64x1_0 : S64.BroadcastsInDim S64x1 (![0] : Fin 1 → Fin S64x1.rank)
  bcast_S_S64x1 : S_.BroadcastsInDim S64x1 (![] : Fin 0 → Fin S64x1.rank)
  bcast_S64x1_S64x128_0_1 : S64x1.BroadcastsInDim S64x128 (![0, 1] : Fin 2 → Fin S64x128.rank)
  transposes_S64x128_S128x64_1_0 : S64x128.Transposes [1, 0] S128x64
  bcast_S_S65536x64 : S_.BroadcastsInDim S65536x64 (![] : Fin 0 → Fin S65536x64.rank)
  reducesTo_S65536x64_S65536_d1 : S65536x64.ReducesTo [1] S65536
  bcast_S_S65536 : S_.BroadcastsInDim S65536 (![] : Fin 0 → Fin S65536.rank)
  bcast_S65536_S65536x1_0 : S65536.BroadcastsInDim S65536x1 (![0] : Fin 1 → Fin S65536x1.rank)
  bcast_S65536x1_S65536x64_0_1 : S65536x1.BroadcastsInDim S65536x64 (![0, 1] : Fin 2 → Fin S65536x64.rank)
  shapeCasts_S65536x128_S16x4096x128 : S65536x128.ShapeCasts S16x4096x128
  dot_S65536x128_S128x64_S65536x64_1_0_0_1_n_n_wf : DotDims.WF S65536x128 S128x64 S65536x64 [1] [0] [0] [1] [] []
  dot_S65536x64_S64x128_S65536x128_1_0_0_1_n_n_wf : DotDims.WF S65536x64 S64x128 S65536x128 [1] [0] [0] [1] [] []

variable [Facts₀]

def dot_S65536x128_S128x64_S65536x64_1_0_0_1_n_n : DotDims S65536x128 S128x64 S65536x64 where
  lhsContracting := [1]
  rhsContracting := [0]
  lhsNonContracting := [0]
  rhsNonContracting := [1]
  lhsBatch := []
  rhsBatch := []
  wf := dot_S65536x128_S128x64_S65536x64_1_0_0_1_n_n_wf
def dot_S65536x64_S64x128_S65536x128_1_0_0_1_n_n : DotDims S65536x64 S64x128 S65536x128 where
  lhsContracting := [1]
  rhsContracting := [0]
  lhsNonContracting := [0]
  rhsNonContracting := [1]
  lhsBatch := []
  rhsBatch := []
  wf := dot_S65536x64_S64x128_S65536x128_1_0_0_1_n_n_wf

class Facts : Prop extends Facts₀ where

variable [Facts]
-- ==== Proof.LibReal.lean ====
import Idealize.ShloMosaic.PureOps.Ideal
import Mathlib.Data.EReal.Basic
import Mathlib.Data.EReal.Operations
import Mathlib.Data.EReal.Inv
import Mathlib.Algebra.BigOperators.Group.Finset.Basic
import Mathlib.Algebra.BigOperators.Ring.Finset
import Mathlib.Analysis.SpecialFunctions.Pow.Real

/-!
  Extended reals that are real numbers.

  At the ideal instance a float value is an extended real.  The arithmetic of `EReal` is
  not a ring (`⊤ + ⊥`, `0 * ⊤` have conventional values), but on the image of `ℝ` every
  operation is the real one.  This file names that image (`IsReal`), shows it closed under
  the operations used, and proves the expansion of a squared distance
  `Σ (e - c)² = Σ e² - 2 Σ e c + Σ c²` for real entries, all operations being `EReal`'s.
-/

open scoped BigOperators

namespace Cert.LibReal

open Idealize.ShloMosaic

/-- An extended real that is a real number. -/
def IsReal (x : EReal) : Prop := ∃ r : ℝ, x = (r : EReal)

theorem IsReal.coe (r : ℝ) : IsReal (r : EReal) := ⟨r, rfl⟩

theorem IsReal.zero : IsReal (0 : EReal) := ⟨0, rfl⟩

theorem IsReal.one : IsReal (1 : EReal) := ⟨1, rfl⟩

theorem IsReal.add {x y : EReal} : IsReal x → IsReal y → IsReal (x + y) := by
  rintro ⟨a, rfl⟩ ⟨b, rfl⟩
  exact ⟨a + b, (EReal.coe_add a b).symm⟩

theorem IsReal.sub {x y : EReal} : IsReal x → IsReal y → IsReal (x - y) := by
  rintro ⟨a, rfl⟩ ⟨b, rfl⟩
  exact ⟨a - b, (EReal.coe_sub a b).symm⟩

theorem IsReal.mul {x y : EReal} : IsReal x → IsReal y → IsReal (x * y) := by
  rintro ⟨a, rfl⟩ ⟨b, rfl⟩
  exact ⟨a * b, (EReal.coe_mul a b).symm⟩

theorem IsReal.neg {x : EReal} : IsReal x → IsReal (-x) := by
  rintro ⟨a, rfl⟩
  exact ⟨-a, (EReal.coe_neg a).symm⟩

theorem IsReal.max {x y : EReal} : IsReal x → IsReal y → IsReal (max x y) := by
  intro hx hy
  rcases le_total x y with h | h
  · rw [max_eq_right h]; exact hy
  · rw [max_eq_left h]; exact hx

theorem IsReal.sum {ι : Type} (s : Finset ι) (f : ι → EReal) :
    (∀ i ∈ s, IsReal (f i)) → IsReal (∑ i ∈ s, f i) := by
  classical
  refine Finset.induction_on s ?_ ?_
  · intro _; rw [Finset.sum_empty]; exact IsReal.zero
  · intro a t ha ih h
    rw [Finset.sum_insert ha]
    exact IsReal.add (h a (Finset.mem_insert_self a t))
      (ih fun i hi => h i (Finset.mem_insert_of_mem hi))

/-- The quotient of a real by a NONZERO real is real (by zero the total division returns an
    infinity). -/
theorem IsReal.div {x y : EReal} : IsReal x → IsReal y → y ≠ 0 → IsReal (Ideal.div x y) := by
  rintro ⟨a, rfl⟩ ⟨b, rfl⟩ hb
  have hb' : b ≠ 0 := fun h => hb (by rw [h]; rfl)
  rw [Ideal.div_coe hb']
  exact IsReal.mul (IsReal.coe a) (IsReal.coe _)

theorem IsReal.exp {x : EReal} : IsReal x → IsReal (Ideal.exp x) := by
  rintro ⟨a, rfl⟩
  exact ⟨Real.exp a, Ideal.exp_coe a⟩

/-- The coercion `ℝ → EReal` commutes with finite sums. -/
theorem coe_sum {ι : Type} (s : Finset ι) (f : ι → ℝ) :
    ((∑ i ∈ s, f i : ℝ) : EReal) = ∑ i ∈ s, (f i : EReal) := by
  classical
  refine Finset.induction_on s ?_ ?_
  · rw [Finset.sum_empty, Finset.sum_empty]; rfl
  · intro a t ha ih
    rw [Finset.sum_insert ha, Finset.sum_insert ha, EReal.coe_add, ih]

/-- `Σ (e - c)² = Σ e² - 2 · Σ e c + Σ c²` on real entries, every operation `EReal`'s. -/
theorem sqdist_expand {n : ℕ} (e c : Fin n → EReal) (he : ∀ k, IsReal (e k)) (hc : ∀ k, IsReal (c k)) :
    ∑ k, (e k - c k) * (e k - c k)
      = (∑ k, e k * e k) - ((2 : ℝ) : EReal) * (∑ k, e k * c k) + ∑ k, c k * c k := by
  choose a ha using he
  choose b hb using hc
  have hE : e = fun k => (a k : EReal) := funext ha
  have hC : c = fun k => (b k : EReal) := funext hb
  subst hE hC
  simp only [← EReal.coe_sub, ← EReal.coe_mul, ← coe_sum, ← EReal.coe_add]
  congr 1
  rw [Finset.mul_sum, ← Finset.sum_sub_distrib, ← Finset.sum_add_distrib]
  exact Finset.sum_congr rfl fun k _ => by ring

/-- Division by one is the identity on a real. -/
theorem div_one_of_isReal {x : EReal} : IsReal x → Ideal.div x 1 = x := by
  rintro ⟨a, rfl⟩
  rw [← EReal.coe_one, Ideal.div_coe one_ne_zero, ← EReal.coe_mul]
  congr 1
  rw [div_one, mul_one]

/-- The power one is the identity on a real. -/
theorem pow_one_of_isReal {x : EReal} : IsReal x → Ideal.pow x 1 = x := by
  rintro ⟨a, rfl⟩
  rw [← EReal.coe_one, Ideal.pow_coe_coe]
  congr 1
  exact Real.rpow_one a

/-- The power one is the identity on every extended real: `⊥` stays `⊥`, `⊤` stays `⊤` since
    `0 < 1`, and a real is `Real.rpow_one`. -/
theorem pow_one (x : EReal) : Ideal.pow x 1 = x := by
  induction x using EReal.rec with
  | bot => exact Ideal.pow_bot 1
  | coe r =>
    rw [← EReal.coe_one, Ideal.pow_coe_coe]
    congr 1
    exact Real.rpow_one r
  | top => rw [Ideal.pow_top, if_pos (by exact_mod_cast (zero_lt_one : (0 : ℝ) < 1))]

end Cert.LibReal
-- ==== Proof.Spec.lean ====
import Idealize.ShloMosaic.PureOps.Ideal
import Idealize.ShloMosaic.PureOps.Ideal.Laws
import proofs.«113822_g85598698209303_cont_9to1_m_192_19_alg».proof.Proof.LibReal
import Mathlib.Analysis.SpecialFunctions.Exp
import Mathlib.Analysis.SpecialFunctions.Sqrt

/-!
  Memory retrieval on one row, over the reals.

  A feature row `q` is scaled to unit length, `q / max ‖q‖ ε`; so is every row of the bank.  The
  unit row attends over the bank's unit rows with weights `softmax_j (⟨q, B_j⟩ / T)`, and the result
  is the unit row plus the weighted sum of the bank's rows.  This file states that function once,
  over the reals, and proves the extended-real identities by which two different spellings of it
  land on the same real number:

  * `x / max (√s) ε  =  x · (max s ε²)^(-1/2)`, because the square root is monotone and `ε > 0`;
  * `(∑ a·b) / T  =  ∑ a·(b·T⁻¹)`, by distributivity on the reals;
  * `exp (t_j - μ) / ∑ exp (t_j' - μ)` does not depend on the real shift `μ`.

  Every entry is a real number here, so the extended reals' arithmetic is the reals'.
-/

open scoped BigOperators

noncomputable section

namespace Cert.Retrieval

open Idealize.ShloMosaic Cert.LibReal

/-- The floor under a norm: the binary fraction `2305843 / 2^61`. -/
def eps : ℝ := 2305843 / 2305843009213693952

/-- The temperature: the binary fraction `9395241 / 2^27`. -/
def temp : ℝ := 9395241 / 134217728

theorem eps_pos : 0 < eps := by unfold eps; norm_num

theorem temp_pos : 0 < temp := by unfold temp; norm_num

theorem eps_sq : eps * eps = 5316911940649 / 5316911983139663491615228241121378304 := by
  unfold eps; norm_num

theorem inv_temp : 1 / temp = 134217728 / 9395241 := by unfold temp; norm_num

variable {κ ι : Type} [Fintype κ] [Fintype ι]

/-- The length of a row, floored at `ε`. -/
def nrm (v : κ → ℝ) : ℝ := max (Real.sqrt (∑ k, v k * v k)) eps

theorem nrm_pos (v : κ → ℝ) : 0 < nrm v := lt_max_of_lt_right eps_pos

/-- A row scaled to unit length (a row shorter than `ε` is scaled by `1/ε`). -/
def unitRow (v : κ → ℝ) (k : κ) : ℝ := v k / nrm v

/-- The similarity of a query with bank row `j`, over the temperature. -/
def logit (q : κ → ℝ) (B : ι → κ → ℝ) (j : ι) : ℝ := (∑ k, q k * B j k) / temp

/-- The attention weight of bank row `j`: the softmax of the logits. -/
def weight (q : κ → ℝ) (B : ι → κ → ℝ) (j : ι) : ℝ :=
  Real.exp (logit q B j) / ∑ j', Real.exp (logit q B j')

/-- The query plus what it retrieves from the bank. -/
def enhance (q : κ → ℝ) (B : ι → κ → ℝ) (k : κ) : ℝ := q k + ∑ j, weight q B j * B j k

/-- The whole row function: normalize the row and the bank, then retrieve. -/
def rowOut (x : κ → ℝ) (M : ι → κ → ℝ) (k : κ) : ℝ :=
  enhance (unitRow x) (fun j => unitRow (M j)) k

/-! ## The coercion and the operations -/

theorem coe_max (a b : ℝ) : ((max a b : ℝ) : EReal) = max (a : EReal) (b : EReal) :=
  EReal.coe_strictMono.monotone.map_max

theorem sqrt_coe_of_nonneg {r : ℝ} (h : 0 ≤ r) : Ideal.sqrt (r : EReal) = (Real.sqrt r : EReal) := by
  rw [Ideal.sqrt_coe, if_neg (not_lt.2 h)]

theorem rsqrt_coe_of_pos {r : ℝ} (h : 0 < r) :
    Ideal.rsqrt (r : EReal) = (((Real.sqrt r)⁻¹ : ℝ) : EReal) := by
  rw [Ideal.rsqrt_coe, if_neg (not_lt.2 h.le), if_neg h.ne']

theorem div_coe_coe (a : ℝ) {b : ℝ} (h : b ≠ 0) : Ideal.div (a : EReal) (b : EReal) = ((a / b : ℝ) : EReal) := by
  rw [Ideal.div_coe h, ← EReal.coe_mul, mul_one_div]

/-- A sum of products of real entries is the real sum. -/
theorem dot_coe (a b : κ → ℝ) :
    ∑ k, (a k : EReal) * (b k : EReal) = ((∑ k, a k * b k : ℝ) : EReal) := by
  simp only [← EReal.coe_mul, ← coe_sum]

/-- The same with a constant factor on the right of every product. -/
theorem dot_scaled_coe (a b : κ → ℝ) (c : ℝ) :
    ∑ k, (a k : EReal) * ((b k : EReal) * (c : EReal)) = (((∑ k, a k * b k) * c : ℝ) : EReal) := by
  simp only [← EReal.coe_mul, ← coe_sum]
  congr 1
  rw [Finset.sum_mul]
  exact Finset.sum_congr rfl fun k _ => by ring

/-- With a factor one on every product (a sum taken as a product with a matrix of ones). -/
theorem sumsq_one_coe (v : κ → ℝ) :
    ∑ k, ((v k : EReal) * (v k : EReal)) * (1 : EReal) = ((∑ k, v k * v k : ℝ) : EReal) := by
  simp only [mul_one, ← EReal.coe_mul, ← coe_sum]

theorem sumsq_nonneg (v : κ → ℝ) : 0 ≤ ∑ k, v k * v k :=
  Finset.sum_nonneg fun k _ => mul_self_nonneg (v k)

/-! ## Unit rows, two ways -/

/-- Dividing by the floored length. -/
theorem unit_div (v : κ → ℝ) (k : κ) :
    Ideal.div (v k : EReal) (max (Ideal.sqrt ((∑ k', v k' * v k' : ℝ) : EReal)) (eps : EReal))
      = (unitRow v k : EReal) := by
  rw [sqrt_coe_of_nonneg (sumsq_nonneg v), ← coe_max]
  exact div_coe_coe (v k) (nrm_pos v).ne'

/-- The square root of a floored square is the floored root. -/
theorem sqrt_max_sq {s : ℝ} (hs : 0 ≤ s) : Real.sqrt (max s (eps * eps)) = max (Real.sqrt s) eps := by
  rcases le_total s (eps * eps) with h | h
  · rw [max_eq_right h, Real.sqrt_mul_self eps_pos.le, max_eq_right]
    calc Real.sqrt s ≤ Real.sqrt (eps * eps) := Real.sqrt_le_sqrt h
      _ = eps := Real.sqrt_mul_self eps_pos.le
  · rw [max_eq_left h, max_eq_left]
    calc eps = Real.sqrt (eps * eps) := (Real.sqrt_mul_self eps_pos.le).symm
      _ ≤ Real.sqrt s := Real.sqrt_le_sqrt h

/-- Multiplying by the reciprocal root of the floored squared length. -/
theorem unit_rsqrt (v : κ → ℝ) (k : κ) :
    (v k : EReal) * Ideal.rsqrt (max ((∑ k', v k' * v k' : ℝ) : EReal) ((eps * eps : ℝ) : EReal))
      = (unitRow v k : EReal) := by
  have hpos : 0 < max (∑ k', v k' * v k') (eps * eps) := lt_max_of_lt_right (mul_pos eps_pos eps_pos)
  rw [← coe_max, rsqrt_coe_of_pos hpos, sqrt_max_sq (sumsq_nonneg v), ← EReal.coe_mul]
  rfl

/-! ## The softmax does not see a real shift -/

theorem softmax_shift [Nonempty ι] (t : ι → ℝ) (μ : ℝ) (j : ι) :
    Ideal.div (Ideal.exp ((t j : EReal) - (μ : EReal))) (∑ j', Ideal.exp ((t j' : EReal) - (μ : EReal)))
      = ((Real.exp (t j) / ∑ j', Real.exp (t j') : ℝ) : EReal) := by
  simp only [← EReal.coe_sub, Ideal.exp_coe, ← coe_sum]
  have hpos : 0 < ∑ j', Real.exp (t j' - μ) :=
    Finset.sum_pos (fun j' _ => Real.exp_pos _) Finset.univ_nonempty
  rw [div_coe_coe _ hpos.ne']
  congr 1
  simp only [Real.exp_sub, ← Finset.sum_div]
  have hμ : Real.exp μ ≠ 0 := (Real.exp_pos μ).ne'
  have hs : (∑ j', Real.exp (t j')) ≠ 0 :=
    (Finset.sum_pos (fun j' _ => Real.exp_pos (t j')) Finset.univ_nonempty).ne'
  field_simp

end Cert.Retrieval

end
-- ==== Proof.Target.lean ====
import Idealize.ShloMosaic.Lib.ValueIdx
import proofs.«113822_g85598698209303_cont_9to1_m_192_19_alg».proof.Proof.Spec

/-!
  The result array as ONE function of the two argument arrays.

  Entry `(b, s, k)` of the result depends on the feature row `(b, s, ·)` and on the whole bank:
  it is `rowOut` of that row and the bank's rows, at lane `k`.
-/

noncomputable section

namespace Cert.Retrieval

open Idealize.ShloMosaic Idealize.ShloMosaic.ValueIdx

/-- Feature arrays `[16, 4096, 128]` and banks `[64, 128]`, as index sets. -/
abbrev FeatIdx : Type := (⟨3, ![16, 4096, 128]⟩ : Shape).Idx
abbrev BankIdx : Type := (⟨2, ![64, 128]⟩ : Shape).Idx

/-- Feature row `(b, s)` of a real array. -/
def featRow (x : FeatIdx → ℝ) (b : Fin 16) (s : Fin 4096) : Fin 128 → ℝ := fun k => x (ix3 b s k)

/-- The bank's rows. -/
def bankRows (mb : BankIdx → ℝ) : Fin 64 → Fin 128 → ℝ := fun j k => mb (ix2 j k)

/-- The result array of real argument arrays. -/
def G (x : FeatIdx → ℝ) (mb : BankIdx → ℝ) : FeatIdx → EReal := fun i =>
  ((rowOut (featRow x ⟨(i 0).val, (i 0).isLt⟩ ⟨(i 1).val, (i 1).isLt⟩) (bankRows mb) ⟨(i 2).val, (i 2).isLt⟩ : ℝ) : EReal)

theorem G_apply (x : FeatIdx → ℝ) (mb : BankIdx → ℝ) (b : Fin 16) (s : Fin 4096) (k : Fin 128) :
    G x mb (ix3 b s k) = ((rowOut (featRow x b s) (bankRows mb) k : ℝ) : EReal) := rfl

end Cert.Retrieval

end
-- ==== Proof.Finite.lean ====
import proofs.«113822_g85598698209303_cont_9to1_m_192_19_alg».proof.Pre_finite_inputs
import Idealize.ShloMosaic.Lib.ReduceAll
import Idealize.ShloMosaic.Lib.ValueIdx
import proofs.«113822_g85598698209303_cont_9to1_m_192_19_alg».proof.Proof.Target

noncomputable section

namespace Cert.Retrieval.Finite

open Idealize.ShloMosaic Idealize.ShloMosaic.ValueIdx Cert.Retrieval

/-- The rank-0 shape has exactly one index. -/
instance : Subsingleton Cert.Pre_finite_inputs.S_.Idx := ⟨fun a b => funext fun d => d.elim0⟩

/-- The word of positive infinity denotes the top element. -/
theorem ofBits_pos_inf : Ideal.ofBits .f32 0x7F800000#32 = (⊤ : EReal) := by
  simp [Ideal.ofBits, Ideal.ieee]

/-- An extended real whose absolute value max e (-e) lies strictly below positive infinity is a real number:
    at ⊥ and at ⊤ the absolute value is ⊤, which is not below itself. -/
theorem real_of_abs_lt (e : EReal)
    (h : Ideal.cmp .olt (max e (-e)) (Ideal.ofBits .f32 0x7F800000#32) = 1#1) : ∃ r : ℝ, e = (r : EReal) := by
  rw [ofBits_pos_inf] at h
  induction e using EReal.rec with
  | bot => exact absurd h (by simp [Ideal.cmp])
  | top => exact absurd h (by simp [Ideal.cmp])
  | coe r => exact ⟨r, rfl⟩

/-- Arrays on which the finiteness predicate is all ones hold real numbers only. -/
theorem real_of_finite [Cert.Pre_finite_inputs.Facts]
    (a0 : FVec Ideal Cert.Pre_finite_inputs.S16x4096x128 .f32) (a1 : FVec Ideal Cert.Pre_finite_inputs.S64x128 .f32)
    (h : Cert.Pre_finite_inputs.fn (F := Ideal) a0 a1 = fun _ => 1#1) :
    (∃ x : FeatIdx → ℝ, a0 = fun i => ((x i : ℝ) : EReal)) ∧ (∃ mb : BankIdx → ℝ, a1 = fun i => ((mb i : ℝ) : EReal)) := by
  have h0 := congrFun h ValueIdx.ix0
  dsimp only [Cert.Pre_finite_inputs.fn] at h0
  obtain ⟨hA, hB⟩ := IntOp.andi_eq_one.1 h0
  have eA : ∀ i, ∃ r : ℝ, a0 i = (r : EReal) := fun i =>
    real_of_abs_lt (a0 i) (Host.reduce_andi_all _ _ _ _ _ hA i)
  have eB : ∀ i, ∃ r : ℝ, a1 i = (r : EReal) := fun i =>
    real_of_abs_lt (a1 i) (Host.reduce_andi_all _ _ _ _ _ hB i)
  choose x hx using eA
  choose mb hmb using eB
  exact ⟨⟨x, funext hx⟩, ⟨mb, funext hmb⟩⟩

end Cert.Retrieval.Finite

end
-- ==== Proof.Consts.lean ====
import Idealize.ShloMosaic.PureOps.Ideal
import Idealize.ShloMosaic.PureOps.Ideal.Laws
import proofs.«113822_g85598698209303_cont_9to1_m_192_19_alg».proof.Proof.Spec

/-!
  The float constants the two programs spell, as the extended reals their patterns denote.
  The norm floor `ε` and the temperature `T` are binary fractions; one (bf16) is `1`; the
  pattern of `-∞` is the bottom element.
-/

noncomputable section

namespace Cert.Retrieval.Consts

open Idealize.ShloMosaic Cert.Retrieval

/-- The norm floor: `2305843 · 2^(-61)`. -/
theorem ofBits_eps : Ideal.ofBits .f32 0x2B8CBCCC#32 = (eps : EReal) := by
  unfold eps
  simp [Ideal.ofBits, Ideal.ieee, -EReal.coe_mul]; norm_num

/-- The temperature: `9395241 · 2^(-27)`. -/
theorem ofBits_temp : Ideal.ofBits .f32 0x3D8F5C29#32 = (temp : EReal) := by
  unfold temp
  simp [Ideal.ofBits, Ideal.ieee, -EReal.coe_mul]; norm_num

/-- One, in the sixteen-bit format. -/
theorem ofBits_one_bf16 : Ideal.ofBits .bf16 0x3F80#16 = 1 := by
  simp [Ideal.ofBits, Ideal.ieee, -EReal.coe_mul]; norm_num

/-- Minus infinity. -/
theorem ofBits_neg_inf : Ideal.ofBits .f32 0xFF800000#32 = ⊥ := by
  simp [Ideal.ofBits, Ideal.ieee]

end Cert.Retrieval.Consts

end
-- ==== Proof.KConsts.lean ====
import proofs.«113822_g85598698209303_cont_9to1_m_192_19_alg».proof.KernelIdeal
import Idealize.ShloMosaic.PureOps.IdealRules
import proofs.«113822_g85598698209303_cont_9to1_m_192_19_alg».proof.Proof.Spec

/-!
  The two constants the idealized kernel NAMES, as the table reads them: the square of the norm
  floor, `ε²`, and the reciprocal of the temperature, `1/T`.
-/

noncomputable section

namespace Cert.Retrieval.Consts

open Idealize.ShloMosaic Cert.Retrieval

theorem named_eps_sq :
    Named.named (F := Ideal) Cert.KernelIdeal.κ "eps_squared" (φ := .f32) 0x179ABE15#32 = ((eps * eps : ℝ) : EReal) := by
  rw [eps_sq]
  exact IdealRules.named_const.ideal_named_scalar _ _ _ _ rfl

theorem named_inv_temp :
    Named.named (F := Ideal) Cert.KernelIdeal.κ "inv_temperature" (φ := .f32) 0x41649249#32 = ((1 / temp : ℝ) : EReal) := by
  rw [inv_temp]
  exact IdealRules.named_const.ideal_named_scalar _ _ _ _ rfl

end Cert.Retrieval.Consts

end
-- ==== Proof.Payload.lean ====
import proofs.«113822_g85598698209303_cont_9to1_m_192_19_alg».proof.Proof.Gen.KernelIdeal.Skeleton
import Idealize.ShloMosaic.Lib.ValueIdx
import Idealize.ShloMosaic.Lib.Pipeline.Value
import Idealize.ShloMosaic.Lib.ValueLayout
import Idealize.ShloMosaic.PureOps.Ideal.Laws
import proofs.«113822_g85598698209303_cont_9to1_m_192_19_alg».proof.Proof.Spec
import proofs.«113822_g85598698209303_cont_9to1_m_192_19_alg».proof.Proof.Consts
import proofs.«113822_g85598698209303_cont_9to1_m_192_19_alg».proof.Proof.KConsts
import proofs.«113822_g85598698209303_cont_9to1_m_192_19_alg».proof.Proof.Target

noncomputable section

namespace Cert.Retrieval.Payload

open Idealize.ShloMosaic Idealize.ShloMosaic.ValueIdx Cert.KernelIdeal Cert.KernelIdeal.Gen Cert.Retrieval

/-! ## The body's value, cut into its stages

The body works on the block re-laid as `16384` rows of `128` lanes (row `p · 4096 + s` is
row `(p, s)` of the block).  Each stage below is the body's own term for it, as a function of the
stages before it; `pay_eq` says that their composition is the stored value. -/

/-- The block as `16384` rows. -/
def rows (x : Vec Ideal S4x4096x128 .f32) : FVec Ideal S16384x128 .f32 :=
  shapeCast S16384x128 x shapeCasts_S4x4096x128_S16384x128

/-- The squared length of each bank row. -/
def bankSq (y : Vec Ideal S64x128 .f32) : FVec Ideal S64 .f32 :=
  multiReduction .add [1] S64 (mulf y y) 0x00000000#32 reduces_S64x128_S64 (.inl rfl) rfl

/-- The bank with every row scaled to unit length: each entry over the floored length of its row. -/
def bankUnit (y : Vec Ideal S64x128 .f32) : FVec Ideal S64x128 .f32 :=
  divf y (broadcastTo S64x128
    (maximumf (sqrt (shapeCast S64x1 (bankSq y) shapeCasts_S64_S64x1)) (broadcast S64x1 (Scalar.ofBits .f32 0x2B8CBCCC#32)))
    broadcasts_S64x1_S64x128)

/-- The squared length of each row, on every lane of the row: the squares times a matrix of ones. -/
def rowSq (a : FVec Ideal S16384x128 .f32) : FVec Ideal S16384x128 .f32 :=
  matmul dot_S16384x128_S128x128_S16384x128_1_0_0_1_n_n none (truncf .bf16 (mulf a a) bitsLt_bf16_f32)
    (broadcast S128x128 (Scalar.ofBits .bf16 0x3F80#16)) (constant S16384x128 .f32 0x00000000#32)

/-- The rows scaled to unit length: each entry times the reciprocal root of the floored squared length. -/
def rowUnit (a : FVec Ideal S16384x128 .f32) : FVec Ideal S16384x128 .f32 :=
  mulf a (rsqrt (maximumf (rowSq a) (broadcast S16384x128 (Named.named κ "eps_squared" 0x179ABE15#32))))

/-- The similarities over the temperature: the unit rows times the transposed unit bank, scaled. -/
def logits (u : FVec Ideal S16384x128 .f32) (b : FVec Ideal S64x128 .f32) : FVec Ideal S16384x64 .f32 :=
  matmul dot_S16384x128_S128x64_S16384x64_1_0_0_1_n_n none u
    (mulf (transpose S128x64 [1, 0] b transposes_S64x128_p1_0_S128x64) (broadcast S128x64 (Named.named κ "inv_temperature" 0x41649249#32)))
    (constant S16384x64 .f32 0x00000000#32)

/-- The shifted exponentials of a row of logits. -/
def expShift (l : FVec Ideal S16384x64 .f32) : FVec Ideal S16384x64 .f32 :=
  exp (subf l (broadcast S16384x64 (Named.named κ "inv_temperature" 0x41649249#32)))

/-- The sum of a row's exponentials. -/
def expSum (e : FVec Ideal S16384x64 .f32) : FVec Ideal S16384 .f32 :=
  multiReduction .add [1] S16384 e 0x00000000#32 reduces_S16384x64_S16384 (.inl rfl) rfl

/-- The attention weights: each exponential over its row's sum. -/
def weights (l : FVec Ideal S16384x64 .f32) : FVec Ideal S16384x64 .f32 :=
  divf (expShift l) (broadcastTo S16384x64 (shapeCast S16384x1 (expSum (expShift l)) shapeCasts_S16384_S16384x1)
    broadcasts_S16384x1_S16384x64)

/-- What the weights retrieve: the weights times the unit bank. -/
def retrieved (w : FVec Ideal S16384x64 .f32) (b : FVec Ideal S64x128 .f32) : FVec Ideal S16384x128 .f32 :=
  matmul dot_S16384x64_S64x128_S16384x128_1_0_0_1_n_n none (truncf .bf16 w bitsLt_bf16_f32) (truncf .bf16 b bitsLt_bf16_f32)
    (constant S16384x128 .f32 0x00000000#32)

/-- The stored value is the composition of the stages, re-laid as a block. -/
theorem pay_eq (x : Vec Ideal S4x4096x128 .f32) (y : Vec Ideal S64x128 .f32) :
    k0_pay1 (F := Ideal) x y
      = shapeCast S4x4096x128
          (addf (rowUnit (rows x)) (retrieved (weights (logits (rowUnit (rows x)) (bankUnit y))) (bankUnit y)))
          shapeCasts_S16384x128_S4x4096x128 := rfl

/-! ## Layout steps read at an index -/

/-- Row `p · 4096 + s` of the re-laid block. -/
abbrev rowIdx (p : Fin 4) (s : Fin 4096) : Fin 16384 := ⟨p.val * 4096 + s.val, by omega⟩

/-- Row `p · 4096 + s` of the re-laid block is row `(p, s)` of the block. -/
theorem rows_apply (x : Vec Ideal S4x4096x128 .f32) (p : Fin 4) (s : Fin 4096) (k : Fin 128) :
    rows x (ix2 (rowIdx p s) k) = x (ix3 p s k) := by
  unfold rows
  exact shapeCast_apply x shapeCasts_S4x4096x128_S16384x128 (ix2 (rowIdx p s) k) (ix3 p s k)
    (by rewrite [Shape.rowMajor_val_three, Shape.rowMajor_val_two]; rfl)

/-- And back: entry `(p, s, k)` of the block re-laid from rows is row `p · 4096 + s` at lane `k`. -/
theorem block_apply (z : FVec Ideal S16384x128 .f32) (p : Fin 4) (s : Fin 4096) (k : Fin 128) :
    shapeCast S4x4096x128 z shapeCasts_S16384x128_S4x4096x128 (ix3 p s k) = z (ix2 (rowIdx p s) k) :=
  shapeCast_apply z shapeCasts_S16384x128_S4x4096x128 (ix3 p s k) (ix2 (rowIdx p s) k)
    (by rewrite [Shape.rowMajor_val_three, Shape.rowMajor_val_two]; rfl)

/-- A vector `[n]` re-laid as a column `[n, 1]` reads its entry `j` at `(j, 0)`. -/
theorem column_apply {α : Type} {n : ℕ} (w : (⟨1, ![n]⟩ : Shape).Idx → α)
    (h : (⟨1, ![n]⟩ : Shape).ShapeCasts ⟨2, ![n, 1]⟩) (j : Fin n) (z : Fin 1) :
    shapeCast ⟨2, ![n, 1]⟩ w h (ix2 j z) = w (ix1 j) :=
  shapeCast_apply w h _ _ (by
    have hz : z.val = 0 := by omega
    rw [Shape.rowMajor_val_two, Shape.rowMajor_val_one]
    show j.val = j.val * 1 + z.val
    rw [hz, Nat.mul_one, Nat.add_zero])

/-- A column `[n, 1]` broadcast over `m` lanes reads, at `(j, k)`, the column's entry `j`. -/
theorem lanes_apply {α : Type} {n m : ℕ} (w : (⟨2, ![n, 1]⟩ : Shape).Idx → α)
    (h : (⟨2, ![n, 1]⟩ : Shape).Broadcasts ⟨2, ![n, m]⟩) (j : Fin n) (k : Fin m) :
    broadcastTo ⟨2, ![n, m]⟩ w h (ix2 j k) = w (ix2 j (0 : Fin 1)) := by
  refine broadcastTo_apply w h (ix2 j k) (ix2 j (0 : Fin 1)) fun ax => ?_
  match ax with
  | ⟨0, _⟩ =>
    show j.val = if n = 1 then 0 else j.val
    split
    · have := j.isLt; omega
    · rfl
  | ⟨1, _⟩ =>
    show 0 = if (1 : ℕ) = 1 then 0 else k.val
    rw [if_pos rfl]

/-! ## The bank's unit rows -/

/-- The lane sum of the bank's squares at row `j`. -/
theorem bankSq_apply (y : Vec Ideal S64x128 .f32) (j : Fin 64) :
    bankSq y (ix1 j) = ∑ k : Fin 128, y (ix2 j k) * y (ix2 j k) := by
  unfold bankSq
  refine (Ideal.multiReduction_add_single (mulf y y) 0x00000000#32 reduces_S64x128_S64 (.inl rfl) rfl (ix1 j)).trans ?_
  refine Finset.sum_congr rfl fun k _ => ?_
  have e : reduces_S64x128_S64.lift (ix1 j) k = ix2 j k :=
    funext fun a => Fin.ext (by match a with | ⟨0, _⟩ => rfl | ⟨1, _⟩ => rfl)
  rw [e]
  rfl

/-- Entry `(j, k)` of the scaled bank is lane `k` of the unit row `j`. -/
theorem bankUnit_apply (mb : S64x128.Idx → ℝ) (j : Fin 64) (k : Fin 128) :
    bankUnit (fun i => ((mb i : ℝ) : EReal)) (ix2 j k) = ((unitRow (bankRows mb j) k : ℝ) : EReal) := by
  unfold bankUnit
  rw [divf_apply, lanes_apply, maximumf_apply, broadcast_apply]
  show Ideal.div _ (max (Ideal.sqrt (shapeCast S64x1 _ shapeCasts_S64_S64x1 (ix2 j (0 : Fin 1)))) (Ideal.ofBits .f32 0x2B8CBCCC#32)) = _
  rw [column_apply, bankSq_apply, Consts.ofBits_eps, dot_coe]
  exact unit_div (bankRows mb j) k

/-! ## The three products read at an index

Each is a product into a zero accumulator over one contracted axis: entry `(r, c)` is the sum over
`k` of the left operand at `(r, k)` times the right at `(k, c)`.  The four facts before each say
which coordinate of an operand index comes from the output index and which from the contraction. -/

theorem lhs_sqmm_0 (i : S16384x128.Idx) (q : dot_S16384x128_S128x128_S16384x128_1_0_0_1_n_n.contr.Idx) :
    (dot_S16384x128_S128x128_S16384x128_1_0_0_1_n_n.lhsIdx i q 0).val = (i 0).val := by
  unfold DotDims.lhsIdx
  rw [dif_neg (show ¬(0 : Fin S16384x128.rank) ∈ dot_S16384x128_S128x128_S16384x128_1_0_0_1_n_n.lhsBatch by decide), dif_pos (show (0 : Fin S16384x128.rank) ∈ dot_S16384x128_S128x128_S16384x128_1_0_0_1_n_n.lhsNonContracting by decide)]
  rfl
theorem lhs_sqmm_1 (i : S16384x128.Idx) (q : dot_S16384x128_S128x128_S16384x128_1_0_0_1_n_n.contr.Idx) :
    (dot_S16384x128_S128x128_S16384x128_1_0_0_1_n_n.lhsIdx i q 1).val = (q ⟨0, by decide⟩).val :=
  dot_S16384x128_S128x128_S16384x128_1_0_0_1_n_n.lhsIdx_val_of_single rfl i q
theorem rhs_sqmm_0 (i : S16384x128.Idx) (q : dot_S16384x128_S128x128_S16384x128_1_0_0_1_n_n.contr.Idx) :
    (dot_S16384x128_S128x128_S16384x128_1_0_0_1_n_n.rhsIdx i q 0).val = (q ⟨0, by decide⟩).val :=
  dot_S16384x128_S128x128_S16384x128_1_0_0_1_n_n.rhsIdx_val_of_single rfl i q
theorem rhs_sqmm_1 (i : S16384x128.Idx) (q : dot_S16384x128_S128x128_S16384x128_1_0_0_1_n_n.contr.Idx) :
    (dot_S16384x128_S128x128_S16384x128_1_0_0_1_n_n.rhsIdx i q 1).val = (i 1).val := by
  unfold DotDims.rhsIdx
  rw [dif_neg (show ¬(1 : Fin S128x128.rank) ∈ dot_S16384x128_S128x128_S16384x128_1_0_0_1_n_n.rhsBatch by decide), dif_pos (show (1 : Fin S128x128.rank) ∈ dot_S16384x128_S128x128_S16384x128_1_0_0_1_n_n.rhsNonContracting by decide)]
  rfl
/-- The rows-by-ones product. -/
theorem sqmm_apply {φ₁ φ₂ : FTy} (l : FVec Ideal S16384x128 φ₁) (m : FVec Ideal S128x128 φ₂) (r : Fin 16384) (c : Fin 128) :
    matmul dot_S16384x128_S128x128_S16384x128_1_0_0_1_n_n none l m (constant S16384x128 .f32 0x00000000#32) (ix2 r c)
      = ∑ k : Fin 128, l (ix2 r k) * m (ix2 k c) := by
  refine (Ideal.matmul_constant_zero_apply dot_S16384x128_S128x128_S16384x128_1_0_0_1_n_n none l m (ix2 r c)).trans ?_
  rw [← Equiv.sum_comp (contrEquiv1 dot_S16384x128_S128x128_S16384x128_1_0_0_1_n_n 128 rfl rfl).symm]
  refine Finset.sum_congr rfl fun k _ => ?_
  have hk := contrEquiv1_symm_val dot_S16384x128_S128x128_S16384x128_1_0_0_1_n_n 128 rfl rfl k
  have el : dot_S16384x128_S128x128_S16384x128_1_0_0_1_n_n.lhsIdx (ix2 r c) ((contrEquiv1 dot_S16384x128_S128x128_S16384x128_1_0_0_1_n_n 128 rfl rfl).symm k) = ix2 r k := funext fun a => Fin.ext (by
    match a with
    | ⟨0, _⟩ => exact lhs_sqmm_0 _ _
    | ⟨1, _⟩ => exact (lhs_sqmm_1 _ _).trans hk)
  have er : dot_S16384x128_S128x128_S16384x128_1_0_0_1_n_n.rhsIdx (ix2 r c) ((contrEquiv1 dot_S16384x128_S128x128_S16384x128_1_0_0_1_n_n 128 rfl rfl).symm k) = ix2 k c := funext fun a => Fin.ext (by
    match a with
    | ⟨0, _⟩ => exact (rhs_sqmm_0 _ _).trans hk
    | ⟨1, _⟩ => exact rhs_sqmm_1 _ _)
  rw [el, er]

theorem lhs_lgmm_0 (i : S16384x64.Idx) (q : dot_S16384x128_S128x64_S16384x64_1_0_0_1_n_n.contr.Idx) :
    (dot_S16384x128_S128x64_S16384x64_1_0_0_1_n_n.lhsIdx i q 0).val = (i 0).val := by
  unfold DotDims.lhsIdx
  rw [dif_neg (show ¬(0 : Fin S16384x128.rank) ∈ dot_S16384x128_S128x64_S16384x64_1_0_0_1_n_n.lhsBatch by decide), dif_pos (show (0 : Fin S16384x128.rank) ∈ dot_S16384x128_S128x64_S16384x64_1_0_0_1_n_n.lhsNonContracting by decide)]
  rfl
theorem lhs_lgmm_1 (i : S16384x64.Idx) (q : dot_S16384x128_S128x64_S16384x64_1_0_0_1_n_n.contr.Idx) :
    (dot_S16384x128_S128x64_S16384x64_1_0_0_1_n_n.lhsIdx i q 1).val = (q ⟨0, by decide⟩).val :=
  dot_S16384x128_S128x64_S16384x64_1_0_0_1_n_n.lhsIdx_val_of_single rfl i q
theorem rhs_lgmm_0 (i : S16384x64.Idx) (q : dot_S16384x128_S128x64_S16384x64_1_0_0_1_n_n.contr.Idx) :
    (dot_S16384x128_S128x64_S16384x64_1_0_0_1_n_n.rhsIdx i q 0).val = (q ⟨0, by decide⟩).val :=
  dot_S16384x128_S128x64_S16384x64_1_0_0_1_n_n.rhsIdx_val_of_single rfl i q
theorem rhs_lgmm_1 (i : S16384x64.Idx) (q : dot_S16384x128_S128x64_S16384x64_1_0_0_1_n_n.contr.Idx) :
    (dot_S16384x128_S128x64_S16384x64_1_0_0_1_n_n.rhsIdx i q 1).val = (i 1).val := by
  unfold DotDims.rhsIdx
  rw [dif_neg (show ¬(1 : Fin S128x64.rank) ∈ dot_S16384x128_S128x64_S16384x64_1_0_0_1_n_n.rhsBatch by decide), dif_pos (show (1 : Fin S128x64.rank) ∈ dot_S16384x128_S128x64_S16384x64_1_0_0_1_n_n.rhsNonContracting by decide)]
  rfl
/-- The rows-by-transposed-bank product. -/
theorem lgmm_apply {φ₁ φ₂ : FTy} (l : FVec Ideal S16384x128 φ₁) (m : FVec Ideal S128x64 φ₂) (r : Fin 16384) (c : Fin 64) :
    matmul dot_S16384x128_S128x64_S16384x64_1_0_0_1_n_n none l m (constant S16384x64 .f32 0x00000000#32) (ix2 r c)
      = ∑ k : Fin 128, l (ix2 r k) * m (ix2 k c) := by
  refine (Ideal.matmul_constant_zero_apply dot_S16384x128_S128x64_S16384x64_1_0_0_1_n_n none l m (ix2 r c)).trans ?_
  rw [← Equiv.sum_comp (contrEquiv1 dot_S16384x128_S128x64_S16384x64_1_0_0_1_n_n 128 rfl rfl).symm]
  refine Finset.sum_congr rfl fun k _ => ?_
  have hk := contrEquiv1_symm_val dot_S16384x128_S128x64_S16384x64_1_0_0_1_n_n 128 rfl rfl k
  have el : dot_S16384x128_S128x64_S16384x64_1_0_0_1_n_n.lhsIdx (ix2 r c) ((contrEquiv1 dot_S16384x128_S128x64_S16384x64_1_0_0_1_n_n 128 rfl rfl).symm k) = ix2 r k := funext fun a => Fin.ext (by
    match a with
    | ⟨0, _⟩ => exact lhs_lgmm_0 _ _
    | ⟨1, _⟩ => exact (lhs_lgmm_1 _ _).trans hk)
  have er : dot_S16384x128_S128x64_S16384x64_1_0_0_1_n_n.rhsIdx (ix2 r c) ((contrEquiv1 dot_S16384x128_S128x64_S16384x64_1_0_0_1_n_n 128 rfl rfl).symm k) = ix2 k c := funext fun a => Fin.ext (by
    match a with
    | ⟨0, _⟩ => exact (rhs_lgmm_0 _ _).trans hk
    | ⟨1, _⟩ => exact rhs_lgmm_1 _ _)
  rw [el, er]

theorem lhs_rtmm_0 (i : S16384x128.Idx) (q : dot_S16384x64_S64x128_S16384x128_1_0_0_1_n_n.contr.Idx) :
    (dot_S16384x64_S64x128_S16384x128_1_0_0_1_n_n.lhsIdx i q 0).val = (i 0).val := by
  unfold DotDims.lhsIdx
  rw [dif_neg (show ¬(0 : Fin S16384x64.rank) ∈ dot_S16384x64_S64x128_S16384x128_1_0_0_1_n_n.lhsBatch by decide), dif_pos (show (0 : Fin S16384x64.rank) ∈ dot_S16384x64_S64x128_S16384x128_1_0_0_1_n_n.lhsNonContracting by decide)]
  rfl
theorem lhs_rtmm_1 (i : S16384x128.Idx) (q : dot_S16384x64_S64x128_S16384x128_1_0_0_1_n_n.contr.Idx) :
    (dot_S16384x64_S64x128_S16384x128_1_0_0_1_n_n.lhsIdx i q 1).val = (q ⟨0, by decide⟩).val :=
  dot_S16384x64_S64x128_S16384x128_1_0_0_1_n_n.lhsIdx_val_of_single rfl i q
theorem rhs_rtmm_0 (i : S16384x128.Idx) (q : dot_S16384x64_S64x128_S16384x128_1_0_0_1_n_n.contr.Idx) :
    (dot_S16384x64_S64x128_S16384x128_1_0_0_1_n_n.rhsIdx i q 0).val = (q ⟨0, by decide⟩).val :=
  dot_S16384x64_S64x128_S16384x128_1_0_0_1_n_n.rhsIdx_val_of_single rfl i q
theorem rhs_rtmm_1 (i : S16384x128.Idx) (q : dot_S16384x64_S64x128_S16384x128_1_0_0_1_n_n.contr.Idx) :
    (dot_S16384x64_S64x128_S16384x128_1_0_0_1_n_n.rhsIdx i q 1).val = (i 1).val := by
  unfold DotDims.rhsIdx
  rw [dif_neg (show ¬(1 : Fin S64x128.rank) ∈ dot_S16384x64_S64x128_S16384x128_1_0_0_1_n_n.rhsBatch by decide), dif_pos (show (1 : Fin S64x128.rank) ∈ dot_S16384x64_S64x128_S16384x128_1_0_0_1_n_n.rhsNonContracting by decide)]
  rfl
/-- The weights-by-bank product. -/
theorem rtmm_apply {φ₁ φ₂ : FTy} (l : FVec Ideal S16384x64 φ₁) (m : FVec Ideal S64x128 φ₂) (r : Fin 16384) (c : Fin 128) :
    matmul dot_S16384x64_S64x128_S16384x128_1_0_0_1_n_n none l m (constant S16384x128 .f32 0x00000000#32) (ix2 r c)
      = ∑ k : Fin 64, l (ix2 r k) * m (ix2 k c) := by
  refine (Ideal.matmul_constant_zero_apply dot_S16384x64_S64x128_S16384x128_1_0_0_1_n_n none l m (ix2 r c)).trans ?_
  rw [← Equiv.sum_comp (contrEquiv1 dot_S16384x64_S64x128_S16384x128_1_0_0_1_n_n 64 rfl rfl).symm]
  refine Finset.sum_congr rfl fun k _ => ?_
  have hk := contrEquiv1_symm_val dot_S16384x64_S64x128_S16384x128_1_0_0_1_n_n 64 rfl rfl k
  have el : dot_S16384x64_S64x128_S16384x128_1_0_0_1_n_n.lhsIdx (ix2 r c) ((contrEquiv1 dot_S16384x64_S64x128_S16384x128_1_0_0_1_n_n 64 rfl rfl).symm k) = ix2 r k := funext fun a => Fin.ext (by
    match a with
    | ⟨0, _⟩ => exact lhs_rtmm_0 _ _
    | ⟨1, _⟩ => exact (lhs_rtmm_1 _ _).trans hk)
  have er : dot_S16384x64_S64x128_S16384x128_1_0_0_1_n_n.rhsIdx (ix2 r c) ((contrEquiv1 dot_S16384x64_S64x128_S16384x128_1_0_0_1_n_n 64 rfl rfl).symm k) = ix2 k c := funext fun a => Fin.ext (by
    match a with
    | ⟨0, _⟩ => exact (rhs_rtmm_0 _ _).trans hk
    | ⟨1, _⟩ => exact rhs_rtmm_1 _ _)
  rw [el, er]

/-! ## The stages on real rows

From here on a row of a stage is known to hold real numbers (`ha`, `hu`, `hb`, … say which), and the
stage after it is read as the real function of them. -/

/-- Every lane of row `r` of the squares-by-ones product holds the row's squared length. -/
theorem rowSq_apply (a : FVec Ideal S16384x128 .f32) (r : Fin 16384) (k : Fin 128) (v : Fin 128 → ℝ)
    (ha : ∀ k', a (ix2 r k') = ((v k' : ℝ) : EReal)) :
    rowSq a (ix2 r k) = ((∑ k', v k' * v k' : ℝ) : EReal) := by
  unfold rowSq
  rw [sqmm_apply]
  simp only [truncf_apply, mulf_apply, broadcast_apply, ha]
  show ∑ k', ((v k' : EReal) * (v k' : EReal)) * Ideal.ofBits .bf16 0x3F80#16 = _
  rw [Consts.ofBits_one_bf16]
  exact sumsq_one_coe v

/-- Row `r` scaled by the reciprocal root of its floored squared length is the unit row. -/
theorem rowUnit_apply (a : FVec Ideal S16384x128 .f32) (r : Fin 16384) (k : Fin 128) (v : Fin 128 → ℝ)
    (ha : ∀ k', a (ix2 r k') = ((v k' : ℝ) : EReal)) :
    rowUnit a (ix2 r k) = ((unitRow v k : ℝ) : EReal) := by
  unfold rowUnit
  rw [mulf_apply]
  show a (ix2 r k) * Ideal.rsqrt (max (rowSq a (ix2 r k))
    (Named.named (F := Ideal) κ "eps_squared" (φ := .f32) 0x179ABE15#32)) = _
  rw [rowSq_apply a r k v ha, Consts.named_eps_sq, ha k]
  exact unit_rsqrt v k

/-- Entry `(r, j)` of the scaled product of unit rows and unit bank is the logit of bank row `j`. -/
theorem logits_apply (u : FVec Ideal S16384x128 .f32) (b : FVec Ideal S64x128 .f32) (r : Fin 16384) (j : Fin 64)
    (q : Fin 128 → ℝ) (B : Fin 64 → Fin 128 → ℝ)
    (hu : ∀ k, u (ix2 r k) = ((q k : ℝ) : EReal)) (hb : ∀ j k, b (ix2 j k) = ((B j k : ℝ) : EReal)) :
    logits u b (ix2 r j) = ((logit q B j : ℝ) : EReal) := by
  unfold logits
  rw [lgmm_apply]
  have ht : ∀ k : Fin 128, transpose S128x64 [1, 0] b transposes_S64x128_p1_0_S128x64 (ix2 k j) = b (ix2 j k) :=
    fun k => transpose_ix2_apply b transposes_S64x128_p1_0_S128x64 k j
  simp only [mulf_apply, broadcast_apply, ht, hu, hb]
  rw [Consts.named_inv_temp, dot_scaled_coe]
  unfold logit
  rw [mul_one_div]

/-- The lane sum of a row of exponentials. -/
theorem expSum_apply (e : FVec Ideal S16384x64 .f32) (r : Fin 16384) :
    expSum e (ix1 r) = ∑ j : Fin 64, e (ix2 r j) := by
  unfold expSum
  refine (Ideal.multiReduction_add_single e 0x00000000#32 reduces_S16384x64_S16384 (.inl rfl) rfl (ix1 r)).trans ?_
  refine Finset.sum_congr rfl fun j _ => ?_
  have e' : reduces_S16384x64_S16384.lift (ix1 r) j = ix2 r j :=
    funext fun a => Fin.ext (by match a with | ⟨0, _⟩ => rfl | ⟨1, _⟩ => rfl)
  rw [e']
  rfl

/-- The weights of row `r` are the softmax of its logits: the common shift cancels. -/
theorem weights_apply (l : FVec Ideal S16384x64 .f32) (r : Fin 16384) (j : Fin 64) (t : Fin 64 → ℝ)
    (hl : ∀ j', l (ix2 r j') = ((t j' : ℝ) : EReal)) :
    weights l (ix2 r j) = ((Real.exp (t j) / ∑ j', Real.exp (t j') : ℝ) : EReal) := by
  unfold weights
  rw [divf_apply, lanes_apply, column_apply, expSum_apply]
  show Ideal.div (Ideal.exp (l (ix2 r j) - Named.named (F := Ideal) κ "inv_temperature" (φ := .f32) 0x41649249#32))
    (∑ j' : Fin 64, Ideal.exp (l (ix2 r j') - Named.named (F := Ideal) κ "inv_temperature" (φ := .f32) 0x41649249#32)) = _
  simp only [hl, Consts.named_inv_temp]
  exact softmax_shift t (1 / temp) j

/-- Entry `(r, k)` of the weights-by-bank product is the weighted sum of the bank's lane `k`. -/
theorem retrieved_apply (w : FVec Ideal S16384x64 .f32) (b : FVec Ideal S64x128 .f32) (r : Fin 16384) (k : Fin 128)
    (ω : Fin 64 → ℝ) (B : Fin 64 → Fin 128 → ℝ)
    (hw : ∀ j, w (ix2 r j) = ((ω j : ℝ) : EReal)) (hb : ∀ j k, b (ix2 j k) = ((B j k : ℝ) : EReal)) :
    retrieved w b (ix2 r k) = ((∑ j, ω j * B j k : ℝ) : EReal) := by
  unfold retrieved
  rw [rtmm_apply]
  simp only [truncf_apply, hw, hb]
  exact dot_coe ω (fun j => B j k)

/-- What the kernel body stores at entry `(p, s, k)` of its block, for a real block and a real bank. -/
theorem payload_eq (v0 : S4x4096x128.Idx → ℝ) (mb : S64x128.Idx → ℝ) (p : Fin 4) (s : Fin 4096) (k : Fin 128) :
    k0_pay1 (F := Ideal) (fun i => ((v0 i : ℝ) : EReal)) (fun i => ((mb i : ℝ) : EReal)) (ix3 p s k)
      = ((rowOut (fun k' => v0 (ix3 p s k')) (bankRows mb) k : ℝ) : EReal) := by
  rw [pay_eq, block_apply, addf_apply]
  have hu : ∀ k', rowUnit (rows (fun i => ((v0 i : ℝ) : EReal))) (ix2 (rowIdx p s) k')
      = ((unitRow (fun k' => v0 (ix3 p s k')) k' : ℝ) : EReal) :=
    fun k' => rowUnit_apply _ (rowIdx p s) k' (fun k' => v0 (ix3 p s k')) (fun k'' => rows_apply _ p s k'')
  have hb := bankUnit_apply mb
  have hl := fun j => logits_apply _ _ (rowIdx p s) j _ _ hu hb
  have hw := fun j => weights_apply _ (rowIdx p s) j _ hl
  rw [hu k, retrieved_apply _ _ (rowIdx p s) k _ _ hw hb, ← EReal.coe_add]
  rfl

end Cert.Retrieval.Payload

end
-- ==== Proof.Blocks.lean ====
import proofs.«113822_g85598698209303_cont_9to1_m_192_19_alg».proof.Proof.Gen.KernelIdeal.Value
import proofs.«113822_g85598698209303_cont_9to1_m_192_19_alg».proof.Proof.Payload
import proofs.«113822_g85598698209303_cont_9to1_m_192_19_alg».proof.Proof.Target

noncomputable section

namespace Cert.Retrieval.Blocks

open Cert.KernelIdeal Cert.KernelIdeal.Gen Idealize.ShloMosaic Idealize.ShloMosaic.TcCoe Idealize.SL.Sem Idealize.ShloMosaic.ValueIdx Cert.Retrieval
open Idealize.ShloMosaic.Pipeline (Dat)

variable (m : (ℓ : Loc nD τ sig) → Buf (Elt Ideal) ℓ) (ρ : Dev nD → PrngReg)

/-- The three zero offsets, as the constant function. -/
theorem zeros3 : (![0, 0, 0] : Fin 3 → Nat) = fun _ => 0 := funext fun a => by fin_cases a <;> rfl
/-- The two zero offsets, as the constant function. -/
theorem zeros2 : (![0, 0] : Fin 2 → Nat) = fun _ => 0 := funext fun a => by fin_cases a <;> rfl

/-- The block index maps over the four grid points: the feature window and the result window sit at block
    (t, 0, 0) of their arrays, the bank window at block (0, 0) of its array. -/
theorem block_index : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

/-- Entry (p, s, k) of block t of the feature array sits in the array at batch b = 4t + p, row s, lane k. -/
theorem feat_emb (t : Fin cfg0.N) (p : Fin 4) (s : Fin 4096) (k : Fin 128) (b : Fin 16) (hb : b.val = 4 * t.val + p.val) :
    ((cfg0.win 0).blk t).view.emb (ix3 p s k) = (ix3 b s k : FeatIdx) := by
  obtain ⟨e0, e1, e2, -⟩ := block_index t
  funext a; apply Fin.ext
  match a with
  | ⟨0, _⟩ => show win0_0.index t (0 : Fin 3) * 4 + 1 * p.val = b.val; omega
  | ⟨1, _⟩ => show win0_0.index t (1 : Fin 3) * 4096 + 1 * s.val = s.val; omega
  | ⟨2, _⟩ => show win0_0.index t (2 : Fin 3) * 128 + 1 * k.val = k.val; omega

/-- Entry (p, s, k) of block t of the result array sits in the array at batch b = 4t + p, row s, lane k. -/
theorem result_emb (t : Fin cfg0.N) (p : Fin 4) (s : Fin 4096) (k : Fin 128) (b : Fin 16) (hb : b.val = 4 * t.val + p.val) :
    ((cfg0.win 2).blk t).view.emb (ix3 p s k) = (ix3 b s k : FeatIdx) := by
  obtain ⟨-, -, -, -, -, e0, e1, e2⟩ := block_index t
  funext a; apply Fin.ext
  match a with
  | ⟨0, _⟩ => show win0_2.index t (0 : Fin 3) * 4 + 1 * p.val = b.val; omega
  | ⟨1, _⟩ => show win0_2.index t (1 : Fin 3) * 4096 + 1 * s.val = s.val; omega
  | ⟨2, _⟩ => show win0_2.index t (2 : Fin 3) * 128 + 1 * k.val = k.val; omega

/-- The bank window's one block is the whole bank: entry (j, k) of the block is entry (j, k) of the array. -/
theorem bank_emb (t : Fin cfg0.N) (j : Fin 64) (k : Fin 128) :
    ((cfg0.win 1).blk t).view.emb (ix2 j k) = (ix2 j k : BankIdx) := by
  obtain ⟨-, -, -, e0, e1, -⟩ := block_index t
  funext a; apply Fin.ext
  match a with
  | ⟨0, _⟩ => show win0_1.index t (0 : Fin 2) * 64 + 1 * j.val = j.val; omega
  | ⟨1, _⟩ => show win0_1.index t (1 : Fin 2) * 128 + 1 * k.val = k.val; omega

/-- Block t of the feature array, when the array holds the reals x: the reals x read through the block. -/
theorem feat_blk (c : Dev nD) (t : Fin cfg0.N) (x : FeatIdx → ℝ)
    (hx : m ((c : Thread nD τ).loc main_arg0) = fun i => ((x i : ℝ) : EReal)) :
    (iblk m c 0 t : Vec Ideal S4x4096x128 .f32) = fun i => ((x (((cfg0.win 0).blk t).view.emb i) : ℝ) : EReal) := by
  funext i
  unfold iblk
  rw [View.read_apply]
  show V m c main_arg0 (((cfg0.win 0).blk t).view.emb i) = _
  rw [V_main_arg0, hx]

/-- The bank window's block, when the bank holds the reals mb: the reals mb themselves. -/
theorem bank_blk (c : Dev nD) (t : Fin cfg0.N) (mb : BankIdx → ℝ)
    (hm : m ((c : Thread nD τ).loc main_arg1) = fun i => ((mb i : ℝ) : EReal)) :
    (iblk m c 1 t : Vec Ideal S64x128 .f32) = fun i => ((mb i : ℝ) : EReal) := by
  funext i
  obtain ⟨j, k, rfl⟩ : ∃ (j : Fin 64) (k : Fin 128), i = ix2 j k := ⟨i 0, i 1, eq_ix2 i⟩
  unfold iblk
  rw [View.read_apply]
  show V m c main_arg1 (((cfg0.win 1).blk t).view.emb (ix2 j k)) = _
  rw [V_main_arg1, hm, bank_emb]

/-- One entry of what a grid point computes: on a block of reals whose row (p, s) is row (b, s) of the feature
    array, against the whole bank, the body's value at (p, s, k) is the specification's value at (b, s, k). -/
theorem point_value (x : FeatIdx → ℝ) (mb : BankIdx → ℝ) (v0 : S4x4096x128.Idx → ℝ)
    (p : Fin 4) (s : Fin 4096) (k : Fin 128) (b : Fin 16)
    (hv : ∀ k' : Fin 128, v0 (ix3 p s k') = x (ix3 b s k')) :
    k0_pay1 (F := Ideal) (fun i => ((v0 i : ℝ) : EReal)) (fun i => ((mb i : ℝ) : EReal)) (ix3 p s k) = G x mb (ix3 b s k) := by
  rw [Payload.payload_eq, G_apply]
  have e : (fun k' => v0 (ix3 p s k')) = featRow x b s := funext hv
  rw [e]

/-- What grid point t writes back is block t of the specification's array. -/
theorem flushed_eq (c : Dev nD) (t : Fin cfg0.N) (x : FeatIdx → ℝ) (mb : BankIdx → ℝ)
    (hx : m ((c : Thread nD τ).loc main_arg0) = fun i => ((x i : ℝ) : EReal))
    (hm : m ((c : Thread nD τ).loc main_arg1) = fun i => ((mb i : ℝ) : EReal)) :
    (dats m 0 c).flushed 2 t = ((cfg0.win 2).blk t).view.read (Elt Ideal) (G x mb) := by
  rw [Value.flushed2]
  unfold out0_2
  rw [View.canon_unit_zero zeros3]
  simp only [View.ld_unit_zero (S := S4x4096x128) zeros3, View.ld_unit_zero (S := S64x128) zeros2]
  have hN : cfg0.N = 4 := N_0
  have key : ∀ (p : Fin 4) (s : Fin 4096) (k : Fin 128),
      k0_pay1 (F := Ideal) (iblk m c 0 t) (iblk m c 1 t) (ix3 p s k) = G x mb (((cfg0.win 2).blk t).view.emb (ix3 p s k)) := by
    intro p s k
    have ht : t.val < 4 := hN ▸ t.isLt
    obtain ⟨b, hb⟩ : ∃ b : Fin 16, b.val = 4 * t.val + p.val := ⟨⟨4 * t.val + p.val, by have := p.isLt; omega⟩, rfl⟩
    rw [result_emb t p s k b hb]
    refine (congrArg₂ (fun u v => k0_pay1 (F := Ideal) u v (ix3 p s k)) (feat_blk m c t x hx) (bank_blk m c t mb hm)).trans ?_
    exact point_value x mb _ p s k b fun k' => congrArg x (feat_emb t p s k' b hb)
  funext j
  obtain ⟨p, s, k, rfl⟩ : ∃ (p : Fin 4) (s : Fin 4096) (k : Fin 128), j = ix3 p s k := ⟨j 0, j 1, j 2, eq_ix3 j⟩
  exact key p s k

/-- An index of the result array lies in point t's block iff each coordinate lies in the block's range on its axis. -/
theorem mem_blk (t : Fin cfg0.N) (i : S16x4096x128.Idx) :
    i ∈ ((cfg0.win 2).blk t).view.set ↔ ∀ a : Fin 3, win0_2.index t a * S4x4096x128.size a ≤ (i a).val ∧ (i a).val < win0_2.index t a * S4x4096x128.size a + S4x4096x128.size a := by
  show i ∈ ((View.whole main_v0).slice (win0_2.rect t)).set ↔ _
  rw [View.set_slice_whole, Rect.mem_set_unit]
  exact Iff.rfl

/-- The four blocks fill the result array: batch b lies in the block of point b / 4. -/
theorem cover (i : S16x4096x128.Idx) :
    ∃ t : Fin cfg0.N, (cfg0.win 2).flush t = true ∧ i ∈ ((cfg0.win 2).blk t).view.set := by
  have hN : cfg0.N = 4 := N_0
  have h0 : (i 0).val < 16 := (i 0).isLt
  have h1 : (i 1).val < 4096 := (i 1).isLt
  have h2 : (i 2).val < 128 := (i 2).isLt
  obtain ⟨t, ht⟩ : ∃ t : Fin cfg0.N, t.val = (i 0).val / 4 := ⟨⟨(i 0).val / 4, by omega⟩, rfl⟩
  obtain ⟨-, -, -, -, -, e0, e1, e2⟩ := block_index t
  refine ⟨t, flush0_2 t, ?_⟩
  rw [mem_blk]
  intro a
  match a with
  | ⟨0, _⟩ => show win0_2.index t (0 : Fin 3) * 4 ≤ (i 0).val ∧ (i 0).val < win0_2.index t (0 : Fin 3) * 4 + 4; omega
  | ⟨1, _⟩ => show win0_2.index t (1 : Fin 3) * 4096 ≤ (i 1).val ∧ (i 1).val < win0_2.index t (1 : Fin 3) * 4096 + 4096; omega
  | ⟨2, _⟩ => show win0_2.index t (2 : Fin 3) * 128 ≤ (i 2).val ∧ (i 2).val < win0_2.index t (2 : Fin 3) * 128 + 128; omega

/-- After the run the result array is `G` of the two argument arrays, when these hold reals. -/
theorem final (c : Dev nD) (x : FeatIdx → ℝ) (mb : BankIdx → ℝ)
    (hx : m ((c : Thread nD τ).loc main_arg0) = fun i => ((x i : ℝ) : EReal))
    (hm : m ((c : Thread nD τ).loc main_arg1) = fun i => ((mb i : ℝ) : EReal)) :
    (dats m 0 c).arrAt 2 cfg0.N = G x mb :=
  (dats m 0 c).arrAt_eq_of_cover 2 (G x mb) (fun t _ => flushed_eq m c t x mb hx hm) cover

/-- The kernel's run, with the result array named as `G` of the arguments. -/
theorem run (x : Dev nD → FeatIdx → ℝ) (mb : Dev nD → BankIdx → ℝ)
    (hx : ∀ c : Dev nD, m ((c : Thread nD τ).loc main_arg0) = fun i => ((x c i : ℝ) : EReal))
    (hm : ∀ c : Dev nD, m ((c : Thread nD τ).loc main_arg1) = fun i => ((mb c i : ℝ) : EReal)) :
    θ_run defs (onTc (τ := τ) (main (F := Ideal))) ⟨m, fun _ => 0, ρ⟩ fun r => ∀ c : Dev nD,
      r.2.mem ((c : Thread nD τ).loc main_v0) = G (x c) (mb c)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c (x c) (mb c) (hx c) (hm c)), (h c).2⟩)
    (Cert.KernelIdeal.Value.run_blocks m ρ)

end Cert.Retrieval.Blocks

end
-- ==== Proof.RefValue.lean ====
import proofs.«113822_g85598698209303_cont_9to1_m_192_19_alg».proof.Proof.Gen.ReferenceIdeal.Read
import Idealize.ShloMosaic.Lib.ValueIdx
import Idealize.ShloMosaic.PureOps.Ideal.Laws
import proofs.«113822_g85598698209303_cont_9to1_m_192_19_alg».proof.Proof.Spec
import proofs.«113822_g85598698209303_cont_9to1_m_192_19_alg».proof.Proof.Consts
import proofs.«113822_g85598698209303_cont_9to1_m_192_19_alg».proof.Proof.Target

/-!
  The reference program, read entry by entry on real argument arrays.

  The reference flattens the features to `65536` rows, `r = b · 4096 + s`.  Row `r` is scaled to a
  unit row `q r`; the bank's rows are scaled to unit rows `B j`; the logits are `⟨q r, B j⟩ / T`; the
  softmax subtracts the row's maximum, a real number, which the quotient does not see; the result
  row is `q r` plus the weighted sum of the `B j`.  Each stage below is the value of one buffer of the
  program at one index, as the coercion of a real number.
-/

open scoped BigOperators

noncomputable section

namespace Cert.Retrieval.RefValue

open Idealize.ShloMosaic Idealize.ShloMosaic.ValueIdx Cert.ReferenceIdeal Cert.ReferenceIdeal.Gen Cert.ReferenceIdeal.Read Cert.Retrieval

variable (x : FeatIdx → ℝ) (mb : BankIdx → ℝ)

/-- The two argument arrays, as arrays of extended reals. -/
abbrev X : (⟨S16x4096x128, .f32⟩ : BufTy).Contents (Elt Ideal) := fun i => ((x i : ℝ) : EReal)
abbrev M : (⟨S64x128, .f32⟩ : BufTy).Contents (Elt Ideal) := fun i => ((mb i : ℝ) : EReal)

/-- Flat row `r` is row `s = r mod 4096` of batch `b = r / 4096`. -/
def rowBatch (r : Fin 65536) : Fin 16 := ⟨r.val / 4096, by have := r.isLt; omega⟩
def rowSeq (r : Fin 65536) : Fin 4096 := ⟨r.val % 4096, Nat.mod_lt _ (by decide)⟩

/-- The unit query of flat row `r`, and the bank's unit rows. -/
def q (r : Fin 65536) : Fin 128 → ℝ := unitRow (featRow x (rowBatch r) (rowSeq r))
def B : Fin 64 → Fin 128 → ℝ := fun j => unitRow (bankRows mb j)

/-! ## The two normalizations -/

theorem sumsq_feat (b : Fin 16) (s : Fin 4096) :
    val_main_v1 (F := Ideal) (X x) (ix2 b s) = ((∑ k, featRow x b s k * featRow x b s k : ℝ) : EReal) := by
  rw [val_main_v1_apply]
  simp only [val_main_v0_apply, val_main_cst_apply, Ideal.ofBits_def, Ideal.ofBits_zero_f32, zero_add, Ideal.mulf_def]
  rw [← dot_coe]
  refine Finset.sum_congr rfl fun k _ => ?_
  have e : idx_main_v1 (ix2 b s) k = ix3 b s k :=
    funext fun a => Fin.ext (by match a with | ⟨0, _⟩ => rfl | ⟨1, _⟩ => rfl | ⟨2, _⟩ => rfl)
  rw [e]
  rfl

theorem unit_feat (b : Fin 16) (s : Fin 4096) (k : Fin 128) :
    val_main_v7 (F := Ideal) (X x) (ix3 b s k) = ((unitRow (featRow x b s) k : ℝ) : EReal) := by
  rw [val_main_v7_apply, val_main_v6_apply, val_main_v5_apply, val_main_v3_apply, val_main_v2_apply,
    val_main_v4_apply, val_main_cst_0_apply]
  have e : idx_main_v2 (idx_main_v6 (ix3 b s k)) = ix2 b s :=
    funext fun a => Fin.ext (by match a with | ⟨0, _⟩ => rfl | ⟨1, _⟩ => rfl)
  rw [e, sumsq_feat]
  simp only [Ideal.hostDivf_def, Ideal.hostUnary_sqrt_def, Ideal.maximumf_def, Ideal.ofBits_def, Consts.ofBits_eps]
  exact unit_div (featRow x b s) k

theorem unit_flat (r : Fin 65536) (k : Fin 128) :
    val_main_v8 (F := Ideal) (X x) (ix2 r k) = ((q x r k : ℝ) : EReal) := by
  rw [val_main_v8_apply]
  have e : idx_main_v8 (ix2 r k) = ix3 (rowBatch r) (rowSeq r) k :=
    funext fun a => Fin.ext (by
      have hr := r.isLt
      have hk := k.isLt
      match a with
      | ⟨0, _⟩ => show (r.val * 128 + k.val) / 524288 = r.val / 4096; omega
      | ⟨1, _⟩ => show (r.val * 128 + k.val) / 128 % 4096 = r.val % 4096; omega
      | ⟨2, _⟩ => show (r.val * 128 + k.val) % 128 = k.val; omega)
  rw [e]
  exact unit_feat x (rowBatch r) (rowSeq r) k

theorem sumsq_bank (j : Fin 64) :
    val_main_v10 (F := Ideal) (M mb) (ix1 j) = ((∑ k, bankRows mb j k * bankRows mb j k : ℝ) : EReal) := by
  rw [val_main_v10_apply]
  simp only [val_main_v9_apply, val_main_cst_1_apply, Ideal.ofBits_def, Ideal.ofBits_zero_f32, zero_add, Ideal.mulf_def]
  rw [← dot_coe]
  refine Finset.sum_congr rfl fun k _ => ?_
  have e : idx_main_v10 (ix1 j) k = ix2 j k :=
    funext fun a => Fin.ext (by match a with | ⟨0, _⟩ => rfl | ⟨1, _⟩ => rfl)
  rw [e]
  rfl

theorem unit_bank (j : Fin 64) (k : Fin 128) :
    val_main_v16 (F := Ideal) (M mb) (ix2 j k) = ((B mb j k : ℝ) : EReal) := by
  rw [val_main_v16_apply, val_main_v15_apply, val_main_v14_apply, val_main_v12_apply, val_main_v11_apply,
    val_main_v13_apply, val_main_cst_2_apply]
  have e : idx_main_v11 (idx_main_v15 (ix2 j k)) = ix1 j :=
    funext fun a => Fin.ext (by match a with | ⟨0, _⟩ => rfl)
  rw [e, sumsq_bank]
  simp only [Ideal.hostDivf_def, Ideal.hostUnary_sqrt_def, Ideal.maximumf_def, Ideal.ofBits_def, Consts.ofBits_eps]
  exact unit_div (bankRows mb j) k

theorem unit_bank_transposed (k : Fin 128) (j : Fin 64) :
    val_main_v17 (F := Ideal) (M mb) (ix2 k j) = ((B mb j k : ℝ) : EReal) := by
  rw [val_main_v17_apply]
  have e : idx_main_v17 (ix2 k j) = ix2 j k :=
    funext fun a => Fin.ext (by match a with | ⟨0, _⟩ => rfl | ⟨1, _⟩ => rfl)
  rw [e]
  exact unit_bank mb j k

/-! ## The logits -/

theorem logit_eq (r : Fin 65536) (j : Fin 64) :
    val_main_v20 (F := Ideal) (X x) (M mb) (ix2 r j) = ((logit (q x r) (B mb) j : ℝ) : EReal) := by
  rw [val_main_v20_apply, val_main_v18_apply, val_main_v19_apply, val_main_cst_3_apply]
  have hk : ∀ k : Fin 128,
      val_main_v8 (F := Ideal) (X x) (lidx_main_v18 (ix2 r j) k) * val_main_v17 (F := Ideal) (M mb) (ridx_main_v18 (ix2 r j) k)
        = ((q x r k : ℝ) : EReal) * ((B mb j k : ℝ) : EReal) := fun k => by
    have el : lidx_main_v18 (ix2 r j) k = ix2 r k :=
      funext fun a => Fin.ext (by match a with | ⟨0, _⟩ => rfl | ⟨1, _⟩ => rfl)
    have er : ridx_main_v18 (ix2 r j) k = ix2 k j :=
      funext fun a => Fin.ext (by match a with | ⟨0, _⟩ => rfl | ⟨1, _⟩ => rfl)
    rw [el, er, unit_flat, unit_bank_transposed]
  rw [Finset.sum_congr rfl fun k _ => hk k, dot_coe]
  simp only [Ideal.hostDivf_def, Ideal.ofBits_def, Consts.ofBits_temp]
  exact div_coe_coe _ temp_pos.ne'

/-- Every logit is a real number. -/
theorem logit_real (i : S65536x64.Idx) : ∃ t : ℝ, val_main_v20 (F := Ideal) (X x) (M mb) i = (t : EReal) := by
  obtain ⟨r, j, rfl⟩ : ∃ (r : Fin 65536) (j : Fin 64), i = ix2 r j := ⟨i 0, i 1, eq_ix2 i⟩
  exact ⟨_, logit_eq x mb r j⟩

/-! ## The row maximum is a real number -/

/-- The maximum, from `-∞`, of finitely many reals over a nonempty index set is a real. -/
theorem fold_max_real {ι : Type} (s : Finset ι) (hs : s.Nonempty) (f : ι → EReal) (hf : ∀ k, ∃ t : ℝ, f k = (t : EReal)) :
    ∃ μ : ℝ, s.fold (FloatOps.maximumf (F := Ideal) (φ := .f32)) (⊥ : EReal) f = (μ : EReal) := by
  induction hs using Finset.Nonempty.cons_induction with
  | singleton a =>
    obtain ⟨t, ht⟩ := hf a
    exact ⟨t, by rw [Finset.fold_singleton, ht]; exact max_eq_left bot_le⟩
  | cons a s ha hs ih =>
    obtain ⟨μ, hμ⟩ := ih
    obtain ⟨t, ht⟩ := hf a
    exact ⟨max t μ, by rw [Finset.fold_cons, hμ, ht]; exact (coe_max t μ).symm⟩

theorem rowmax_real (r : Fin 65536) :
    ∃ μ : ℝ, val_main_v23 (F := Ideal) (X x) (M mb) (ix1 r) = (μ : EReal) := by
  rw [val_main_v23_apply, val_main_v22_apply, val_main_cst_5_apply]
  simp only [Ideal.maximumf_def, Ideal.ofBits_def, Consts.ofBits_neg_inf, bot_le, max_eq_right]
  unfold val_main_v21
  rw [Host.reduce_eq_fold_single FloatOps.maximumf _ _ reducesTo_S65536x64_S65536_d1 (by decide) h_S_]
  rw [val_main_cst_4_apply, Ideal.ofBits_def, Consts.ofBits_neg_inf]
  exact fold_max_real _ ⟨⟨0, by decide⟩, Finset.mem_univ _⟩ _ fun k => logit_real x mb _

/-! ## The softmax -/

theorem shifted_exp (r : Fin 65536) (μ : ℝ) (hμ : val_main_v23 (F := Ideal) (X x) (M mb) (ix1 r) = (μ : EReal)) (j : Fin 64) :
    val_main_v27 (F := Ideal) (X x) (M mb) (ix2 r j)
      = Ideal.exp (((logit (q x r) (B mb) j : ℝ) : EReal) - (μ : EReal)) := by
  rw [val_main_v27_apply, val_main_v26_apply, val_main_v25_apply, val_main_v24_apply]
  have e : idx_main_v24 (idx_main_v25 (ix2 r j)) = ix1 r :=
    funext fun a => Fin.ext (by match a with | ⟨0, _⟩ => rfl)
  rw [e, hμ, logit_eq]
  rfl

theorem weight_eq (r : Fin 65536) (j : Fin 64) :
    val_main_v31 (F := Ideal) (X x) (M mb) (ix2 r j) = ((weight (q x r) (B mb) j : ℝ) : EReal) := by
  obtain ⟨μ, hμ⟩ := rowmax_real x mb r
  rw [val_main_v31_apply, val_main_v30_apply, val_main_v29_apply, val_main_v28_apply, val_main_cst_6_apply]
  have e : idx_main_v29 (idx_main_v30 (ix2 r j)) = ix1 r :=
    funext fun a => Fin.ext (by match a with | ⟨0, _⟩ => rfl)
  rw [e]
  have hk : ∀ k : Fin 64, val_main_v27 (F := Ideal) (X x) (M mb) (idx_main_v28 (ix1 r) k)
      = Ideal.exp (((logit (q x r) (B mb) k : ℝ) : EReal) - (μ : EReal)) := fun k => by
    have e' : idx_main_v28 (ix1 r) k = ix2 r k :=
      funext fun a => Fin.ext (by match a with | ⟨0, _⟩ => rfl | ⟨1, _⟩ => rfl)
    rw [e']
    exact shifted_exp x mb r μ hμ k
  rw [Finset.sum_congr rfl fun k _ => hk k, shifted_exp x mb r μ hμ j]
  simp only [Ideal.hostDivf_def, Ideal.ofBits_def, Ideal.ofBits_zero_f32, zero_add]
  exact softmax_shift (logit (q x r) (B mb)) μ j

/-! ## What is retrieved, and the result -/

theorem retrieved_eq (r : Fin 65536) (k : Fin 128) :
    val_main_v32 (F := Ideal) (X x) (M mb) (ix2 r k)
      = ((∑ j, weight (q x r) (B mb) j * B mb j k : ℝ) : EReal) := by
  rw [val_main_v32_apply]
  have hj : ∀ j : Fin 64,
      val_main_v31 (F := Ideal) (X x) (M mb) (lidx_main_v32 (ix2 r k) j) * val_main_v16 (F := Ideal) (M mb) (ridx_main_v32 (ix2 r k) j)
        = ((weight (q x r) (B mb) j : ℝ) : EReal) * ((B mb j k : ℝ) : EReal) := fun j => by
    have el : lidx_main_v32 (ix2 r k) j = ix2 r j :=
      funext fun a => Fin.ext (by match a with | ⟨0, _⟩ => rfl | ⟨1, _⟩ => rfl)
    have er : ridx_main_v32 (ix2 r k) j = ix2 j k :=
      funext fun a => Fin.ext (by match a with | ⟨0, _⟩ => rfl | ⟨1, _⟩ => rfl)
    rw [el, er, weight_eq, unit_bank]
  rw [Finset.sum_congr rfl fun j _ => hj j, dot_coe]

theorem enhanced_flat (r : Fin 65536) (k : Fin 128) :
    val_main_v33 (F := Ideal) (X x) (M mb) (ix2 r k) = ((enhance (q x r) (B mb) k : ℝ) : EReal) := by
  rw [val_main_v33_apply, unit_flat, retrieved_eq]
  exact (EReal.coe_add _ _).symm

theorem enhanced (b : Fin 16) (s : Fin 4096) (k : Fin 128) :
    val_main_v34 (F := Ideal) (X x) (M mb) (ix3 b s k) = ((rowOut (featRow x b s) (bankRows mb) k : ℝ) : EReal) := by
  rw [val_main_v34_apply]
  have hb := b.isLt
  have hs := s.isLt
  have hk := k.isLt
  have e : idx_main_v34 (ix3 b s k) = ix2 (⟨b.val * 4096 + s.val, by omega⟩ : Fin 65536) k :=
    funext fun a => Fin.ext (by
      match a with
      | ⟨0, _⟩ => show ((b.val * 4096 + s.val) * 128 + k.val) / 128 = b.val * 4096 + s.val; omega
      | ⟨1, _⟩ => show ((b.val * 4096 + s.val) * 128 + k.val) % 128 = k.val; omega)
  rw [e, enhanced_flat]
  have eb : rowBatch (⟨b.val * 4096 + s.val, by omega⟩ : Fin 65536) = b := Fin.ext (by show (b.val * 4096 + s.val) / 4096 = b.val; omega)
  have es : rowSeq (⟨b.val * 4096 + s.val, by omega⟩ : Fin 65536) = s := Fin.ext (by show (b.val * 4096 + s.val) % 4096 = s.val; omega)
  unfold q
  rw [eb, es]
  rfl

/-- The reference's result term, for real argument arrays, is `G`. -/
theorem ref_eq :
    val_main_v34 (F := Ideal) (fun i => ((x i : ℝ) : EReal)) (fun i => ((mb i : ℝ) : EReal)) = G x mb := by
  funext i
  obtain ⟨b, s, k, rfl⟩ : ∃ (b : Fin 16) (s : Fin 4096) (k : Fin 128), i = ix3 b s k := ⟨i 0, i 1, i 2, eq_ix3 i⟩
  rw [G_apply]
  exact enhanced x mb b s k

end Cert.Retrieval.RefValue

end
-- ==== Proof.lean ====
/-
  A feature array `[16, 4096, 128]` attends over a memory bank `[64, 128]`: every feature row and
  every bank row is scaled to unit length (a length below `ε` is floored at `ε`), the unit row's
  similarities with the bank's unit rows, over the temperature `T`, are turned into weights by a
  softmax, and the result row is the unit row plus the weighted sum of the bank's unit rows.

  The kernel computes this in four blocks of four batches.  It multiplies by the reciprocal root
  of `max (Σ x²) ε²` where the reference divides by `max (√(Σ x²)) ε`; it folds `1/T` into the
  bank's operand where the reference divides the similarities by `T`; and it shifts the softmax's
  exponent by the constant `1/T` where the reference shifts by the row's maximum.  With `ε²` and
  `1/T` read as the exact square and the exact reciprocal of the reference's own constants, all
  three are identities on real numbers, and the inputs are real by the precondition.

  Both programs' result arrays are shown to be ONE function `G` of the argument arrays
  (Proof/Target.lean): the kernel's block by block (Proof/Payload.lean, Proof/Blocks.lean), the
  reference's stage by stage (Proof/RefValue.lean), over the real-number identities of
  Proof/Spec.lean; Proof/Finite.lean reads the precondition.
-/
import proofs.«113822_g85598698209303_cont_9to1_m_192_19_alg».proof.Defs
import proofs.«113822_g85598698209303_cont_9to1_m_192_19_alg».proof.Proof.Gen.Kernel
import proofs.«113822_g85598698209303_cont_9to1_m_192_19_alg».proof.Proof.Gen.Kernel.Skeleton
import proofs.«113822_g85598698209303_cont_9to1_m_192_19_alg».proof.Proof.Gen.Kernel.Launch
import proofs.«113822_g85598698209303_cont_9to1_m_192_19_alg».proof.Proof.Gen.Kernel.Points
import proofs.«113822_g85598698209303_cont_9to1_m_192_19_alg».proof.Proof.Gen.Kernel.Frame
import proofs.«113822_g85598698209303_cont_9to1_m_192_19_alg».proof.Proof.Gen.KernelIdeal
import proofs.«113822_g85598698209303_cont_9to1_m_192_19_alg».proof.Proof.Gen.KernelIdeal.Skeleton
import proofs.«113822_g85598698209303_cont_9to1_m_192_19_alg».proof.Proof.Gen.KernelIdeal.Launch
import proofs.«113822_g85598698209303_cont_9to1_m_192_19_alg».proof.Proof.Gen.KernelIdeal.Points
import proofs.«113822_g85598698209303_cont_9to1_m_192_19_alg».proof.Proof.Gen.KernelIdeal.Frame
import proofs.«113822_g85598698209303_cont_9to1_m_192_19_alg».proof.Proof.Gen.ReferenceIdeal
import proofs.«113822_g85598698209303_cont_9to1_m_192_19_alg».proof.Proof.Gen.Pre_finite_inputs
import proofs.«113822_g85598698209303_cont_9to1_m_192_19_alg».proof.Proof.Gen.KernelIdeal.Value
import proofs.«113822_g85598698209303_cont_9to1_m_192_19_alg».proof.Proof.Gen.ReferenceIdeal.Run
import proofs.«113822_g85598698209303_cont_9to1_m_192_19_alg».proof.Proof.Gen.ReferenceIdeal.Read
import proofs.«113822_g85598698209303_cont_9to1_m_192_19_alg».proof.Proof.Finite
import proofs.«113822_g85598698209303_cont_9to1_m_192_19_alg».proof.Proof.Blocks
import proofs.«113822_g85598698209303_cont_9to1_m_192_19_alg».proof.Proof.RefValue
import Idealize.ShloMosaic.Adequacy
import Idealize.ShloMosaic.Init

noncomputable section

namespace Cert.Proof

open Idealize.ShloMosaic Idealize.SL.Sem

/-- Each program runs to the end without a fault and leaves its arguments as they were. -/
theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The idealized kernel differs from the kernel in two named constants, at three places: the
    table reads `ε²` and `1/T` as the exact square and reciprocal of the reference's constants. -/
theorem preserves : Cert.preserves_Kernel_KernelIdeal :=
  ⟨IdealRules.named_const.statement Cert.KernelIdeal.κ "eps_squared" .f32 0x179ABE15#32
      ((5316911940649 / 5316911983139663491615228241121378304 : ℝ) : EReal) rfl,
    IdealRules.named_const.statement Cert.KernelIdeal.κ "inv_temperature" .f32 0x41649249#32
      ((134217728 / 9395241 : ℝ) : EReal) rfl,
    IdealRules.named_const.statement Cert.KernelIdeal.κ "inv_temperature" .f32 0x41649249#32
      ((134217728 / 9395241 : ℝ) : EReal) rfl⟩

/-- On finite inputs both result arrays are `G` of the (real) argument arrays. -/
theorem algebraic : Cert.algebraic_KernelIdeal_ReferenceIdeal := by
  intro m ρ m' ρ' hpre hagree
  have hreal := fun c => Cert.Retrieval.Finite.real_of_finite _ _ (hpre c)
  choose x hx using fun c => (hreal c).1
  choose mb hmb using fun c => (hreal c).2
  refine ⟨fun c => Cert.Retrieval.G (x c) (mb c), Cert.Retrieval.Blocks.run m ρ x mb hx hmb, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v34_eq, (hagree c).1, (hagree c).2, hx c, hmb c]
  exact Cert.Retrieval.RefValue.ref_eq (x c) (mb c)

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
